-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S128 .f32) (main_arg7 : FVec F S128x40 .f32) (main_arg8 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg7
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg8
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) (main_arg7 : FVec F S128x40 .f32) (main_arg8 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S5000x1 : Shape := ⟨2, ![5000, 1]⟩
abbrev S1600000x128 : Shape := ⟨2, ![1600000, 128]⟩
abbrev S1x128 : Shape := ⟨2, ![1, 128]⟩
abbrev S100000x40 : Shape := ⟨2, ![100000, 40]⟩
abbrev S5000x40 : Shape := ⟨2, ![5000, 40]⟩
abbrev S1600000x40 : Shape := ⟨2, ![1600000, 40]⟩
abbrev S1x40 : Shape := ⟨2, ![1, 40]⟩

abbrev nBuf : Space → Nat
  | .hbm => 95
  | .vmem => 42
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x40, .f32⟩
  | .hbm, ⟨8, _⟩ => ⟨S40, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .i1⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000, .f32⟩
  | .hbm, ⟨37, _⟩ => ⟨S_, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S100000x1, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000x1, .f32⟩
  | .hbm, ⟨57, _⟩ => ⟨S1x128, .f32⟩
  | .hbm, ⟨58, _⟩ => ⟨S100000x128, .f32⟩
  | .hbm, ⟨59, _⟩ => ⟨S100000x1, .f32⟩
  | .hbm, ⟨60, _⟩ => ⟨S100000x128, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x128, .f32⟩
  | .hbm, ⟨70, _⟩ => ⟨S_, .f32⟩
  | .hbm, ⟨71, _⟩ => ⟨S100000x128, .f32⟩
  | .hbm, ⟨72, _⟩ => ⟨S1600000x1, .i32⟩
  | .hbm, ⟨73, _⟩ => ⟨S100000x128, .f32⟩
  | .hbm, ⟨74, _⟩ => ⟨S100000x1, .f32⟩
  | .hbm, ⟨75, _⟩ => ⟨S1x128, .f32⟩
  | .hbm, ⟨76, _⟩ => ⟨S100000x128, .f32⟩
  | .hbm, ⟨77, _⟩ => ⟨S100000x1, .f32⟩
  | .hbm, ⟨78, _⟩ => ⟨S100000x40, .f32⟩
  | .hbm, ⟨79, _⟩ => ⟨S_, .i32⟩
  | .hbm, ⟨80, _⟩ => ⟨S1600000, .i32⟩
  | .hbm, ⟨81, _⟩ => ⟨S1600000, .i1⟩
  | .hbm, ⟨82, _⟩ => ⟨S_, .i32⟩
  | .hbm, ⟨83, _⟩ => ⟨S1600000, .i32⟩
  | .hbm, ⟨84, _⟩ => ⟨S1600000, .i32⟩
  | .hbm, ⟨85, _⟩ => ⟨S1600000, .i32⟩
  | .hbm, ⟨86, _⟩ => ⟨S1600000x1, .i32⟩
  | .hbm, ⟨87, _⟩ => ⟨S1600000x40, .f32⟩
  | .hbm, ⟨88, _⟩ => ⟨S_, .f32⟩
  | .hbm, ⟨89, _⟩ => ⟨S100000x40, .f32⟩
  | .hbm, ⟨90, _⟩ => ⟨S1600000x1, .i32⟩
  | .hbm, ⟨91, _⟩ => ⟨S100000x40, .f32⟩
  | .hbm, ⟨92, _⟩ => ⟨S100000x1, .f32⟩
  | .hbm, ⟨93, _⟩ => ⟨S1x40, .f32⟩
  | .hbm, ⟨94, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S128x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x1, .f32⟩
  | .local _ .vmem, ⟨31, _⟩ => ⟨S5000x1, .f32⟩
  | .local _ .vmem, ⟨32, _⟩ => ⟨S128x40, .f32⟩
  | .local _ .vmem, ⟨33, _⟩ => ⟨S5000x40, .f32⟩
  | .local _ .vmem, ⟨34, _⟩ => ⟨S5000x40, .f32⟩
  | .local _ .vmem, ⟨35, _⟩ => ⟨S5000x40, .f32⟩
  | .local _ .vmem, ⟨36, _⟩ => ⟨S5000x40, .f32⟩
  | .local _ .vmem, ⟨37, _⟩ => ⟨S5000x1, .f32⟩
  | .local _ .vmem, ⟨38, _⟩ => ⟨S5000x1, .f32⟩
  | .local _ .vmem, ⟨39, _⟩ => ⟨S1x40, .f32⟩
  | .local _ .vmem, ⟨40, _⟩ => ⟨S5000x40, .f32⟩
  | .local _ .vmem, ⟨41, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v12 : Ref sig .tc := ⟨.hbm, 29, rfl⟩
abbrev main_cst_5 : Ref sig .tc := ⟨.hbm, 30, rfl⟩
abbrev main_v13 : Ref sig .tc := ⟨.hbm, 31, rfl⟩
abbrev main_v14 : Ref sig .tc := ⟨.hbm, 32, rfl⟩
abbrev main_cst_6 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_7 : Ref sig .tc := ⟨.hbm, 37, rfl⟩
abbrev main_call1_v0 : Ref sig .tc := ⟨.hbm, 38, rfl⟩
abbrev main_call1_v1 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c : Ref sig .tc := ⟨.hbm, 43, rfl⟩
abbrev main_v21 : Ref sig .tc := ⟨.hbm, 44, rfl⟩
abbrev main_v22 : Ref sig .tc := ⟨.hbm, 45, rfl⟩
abbrev main_c_8 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_9 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_10 : Ref sig .tc := ⟨.hbm, 61, rfl⟩
abbrev main_v36 : Ref sig .tc := ⟨.hbm, 62, rfl⟩
abbrev main_v37 : Ref sig .tc := ⟨.hbm, 63, rfl⟩
abbrev main_c_11 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_12 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_13 : Ref sig .tc := ⟨.hbm, 79, rfl⟩
abbrev main_v51 : Ref sig .tc := ⟨.hbm, 80, rfl⟩
abbrev main_v52 : Ref sig .tc := ⟨.hbm, 81, rfl⟩
abbrev main_c_14 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_15 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem3_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x40 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x40 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x40 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x40 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  broadcasts_S5000x1_S5000x40 : S5000x1.Broadcasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x40_S5000x40_1_0_0_1_n_n_wf : DotDims.WF S5000x128 S128x40 S5000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x40.size a ≤ S128x40.size a
  hwx4_2 : ∀ i : grid4.Coords, EltTy.bits .f32 = 32 ∨ (Rect.block (s := S128x40) S128x40.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x40.size a ≤ S100000x40.size a
  hwx4_3 : ∀ i : grid4.Coords, EltTy.bits .f32 = 32 ∨ (Rect.block (s := S100000x40) S5000x40.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x40.size a ≤ S100000x40.size a
  hwx5_0 : ∀ i : grid5.Coords, EltTy.bits .f32 = 32 ∨ (Rect.block (s := S100000x40) S5000x40.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x40.size a ≤ S1x40.size a
  hwx5_2 : ∀ i : grid5.Coords, EltTy.bits .f32 = 32 ∨ (Rect.block (s := S1x40) S1x40.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x40.size a ≤ S100000x40.size a
  hwx5_3 : ∀ i : grid5.Coords, EltTy.bits .f32 = 32 ∨ (Rect.block (s := S100000x40) S5000x40.size (cc5_transform_3 i) (hinb5_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v33) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v45) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v46) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v47) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v48) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v48) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v49) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S128x40.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v50) S5000x40.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v60) S5000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v61) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v62) S1x40.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v63) S5000x40.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x40 : Shape := ⟨2, ![100000, 40]⟩
abbrev S1600000x40 : Shape := ⟨2, ![1600000, 40]⟩
abbrev S1x40 : Shape := ⟨2, ![1, 40]⟩

abbrev nBuf : Space → Nat
  | .hbm => 116
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x40, .f32⟩
  | .hbm, ⟨8, _⟩ => ⟨S40, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .i1⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000, .f32⟩
  | .hbm, ⟨37, _⟩ => ⟨S_, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S100000x1, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S100000x1, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S100000x1, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x128, .f32⟩
  | .hbm, ⟨80, _⟩ => ⟨S_, .f32⟩
  | .hbm, ⟨81, _⟩ => ⟨S100000x128, .f32⟩
  | .hbm, ⟨82, _⟩ => ⟨S1600000x1, .i32⟩
  | .hbm, ⟨83, _⟩ => ⟨S100000x128, .f32⟩
  | .hbm, ⟨84, _⟩ => ⟨S100000x1, .f32⟩
  | .hbm, ⟨85, _⟩ => ⟨S100000x128, .f32⟩
  | .hbm, ⟨86, _⟩ => ⟨S100000x128, .f32⟩
  | .hbm, ⟨87, _⟩ => ⟨S1x128, .f32⟩
  | .hbm, ⟨88, _⟩ => ⟨S100000x128, .f32⟩
  | .hbm, ⟨89, _⟩ => ⟨S100000x128, .f32⟩
  | .hbm, ⟨90, _⟩ => ⟨S_, .f32⟩
  | .hbm, ⟨91, _⟩ => ⟨S100000x128, .f32⟩
  | .hbm, ⟨92, _⟩ => ⟨S100000x128, .f32⟩
  | .hbm, ⟨93, _⟩ => ⟨S100000x1, .f32⟩
  | .hbm, ⟨94, _⟩ => ⟨S100000x128, .f32⟩
  | .hbm, ⟨95, _⟩ => ⟨S100000x128, .f32⟩
  | .hbm, ⟨96, _⟩ => ⟨S100000x40, .f32⟩
  | .hbm, ⟨97, _⟩ => ⟨S_, .i32⟩
  | .hbm, ⟨98, _⟩ => ⟨S1600000, .i32⟩
  | .hbm, ⟨99, _⟩ => ⟨S1600000, .i1⟩
  | .hbm, ⟨100, _⟩ => ⟨S_, .i32⟩
  | .hbm, ⟨101, _⟩ => ⟨S1600000, .i32⟩
  | .hbm, ⟨102, _⟩ => ⟨S1600000, .i32⟩
  | .hbm, ⟨103, _⟩ => ⟨S1600000, .i32⟩
  | .hbm, ⟨104, _⟩ => ⟨S1600000x1, .i32⟩
  | .hbm, ⟨105, _⟩ => ⟨S1600000x40, .f32⟩
  | .hbm, ⟨106, _⟩ => ⟨S_, .f32⟩
  | .hbm, ⟨107, _⟩ => ⟨S100000x40, .f32⟩
  | .hbm, ⟨108, _⟩ => ⟨S1600000x1, .i32⟩
  | .hbm, ⟨109, _⟩ => ⟨S100000x40, .f32⟩
  | .hbm, ⟨110, _⟩ => ⟨S100000x1, .f32⟩
  | .hbm, ⟨111, _⟩ => ⟨S100000x40, .f32⟩
  | .hbm, ⟨112, _⟩ => ⟨S100000x40, .f32⟩
  | .hbm, ⟨113, _⟩ => ⟨S1x40, .f32⟩
  | .hbm, ⟨114, _⟩ => ⟨S100000x40, .f32⟩
  | .hbm, ⟨115, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v12 : Ref sig .tc := ⟨.hbm, 29, rfl⟩
abbrev main_cst_5 : Ref sig .tc := ⟨.hbm, 30, rfl⟩
abbrev main_v13 : Ref sig .tc := ⟨.hbm, 31, rfl⟩
abbrev main_v14 : Ref sig .tc := ⟨.hbm, 32, rfl⟩
abbrev main_cst_6 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_7 : Ref sig .tc := ⟨.hbm, 37, rfl⟩
abbrev main_call1_v0 : Ref sig .tc := ⟨.hbm, 38, rfl⟩
abbrev main_call1_v1 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c : Ref sig .tc := ⟨.hbm, 45, rfl⟩
abbrev main_v23 : Ref sig .tc := ⟨.hbm, 46, rfl⟩
abbrev main_v24 : Ref sig .tc := ⟨.hbm, 47, rfl⟩
abbrev main_c_8 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_9 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_call2_cst : Ref sig .tc := ⟨.hbm, 64, rfl⟩
abbrev main_call2_v0 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_10 : Ref sig .tc := ⟨.hbm, 71, rfl⟩
abbrev main_v44 : Ref sig .tc := ⟨.hbm, 72, rfl⟩
abbrev main_v45 : Ref sig .tc := ⟨.hbm, 73, rfl⟩
abbrev main_c_11 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_12 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_call3_cst : Ref sig .tc := ⟨.hbm, 90, rfl⟩
abbrev main_call3_v0 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c_13 : Ref sig .tc := ⟨.hbm, 97, rfl⟩
abbrev main_v65 : Ref sig .tc := ⟨.hbm, 98, rfl⟩
abbrev main_v66 : Ref sig .tc := ⟨.hbm, 99, rfl⟩
abbrev main_c_14 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_15 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.Spec.lean ====
/-
  One graph-convolution layer, as whole-array functions over the extended reals.

  A layer scales every node's feature row by the node's out-degree factor and multiplies by the weight matrix
  (`scaleMatmul`), sums the transformed rows over the edges into their destination nodes (done on the host by both
  programs, by one and the same chain of operations), and scales each aggregated row by the in-degree factor and adds the
  bias (`scaleBias`), followed in the first two layers by the positive part (`scaleBiasRelu`).

  Below, the two dense steps are defined index by index, and each is identified with the two spellings the programs
  use: on a row tile — a column of factors broadcast along the lanes, a product into a zero accumulator — and on the
  whole array — a vector broadcast to a column and then to a matrix, a contraction of axis 1 with axis 0.
-/
import Idealize.ShloMosaic.PureOps.Ideal.Laws
import Idealize.ShloMosaic.Lib.ValueIdx
import Idealize.ShloMosaic.Lib.Pipeline.Value

noncomputable section

namespace Cert.GraphConv

open Idealize.ShloMosaic Idealize.ShloMosaic.ValueIdx

/-! ## The two dense steps, index by index -/

section Defs

variable {N K M : Nat}

/-- Row `p` of `h` scaled by `s p`, times the matrix `w`: at `(p, q)` the sum over `k` of `h(p, k) · s(p) · w(k, q)`. -/
def scaleMatmul (h : FVec Ideal ⟨2, ![N, K]⟩ .f32) (s : FVec Ideal ⟨1, ![N]⟩ .f32) (w : FVec Ideal ⟨2, ![K, M]⟩ .f32) :
    FVec Ideal ⟨2, ![N, M]⟩ .f32 :=
  fun j => ∑ k : Fin K, (h (ix2 (j 0) k) * s (ix1 (j 0))) * w (ix2 k (j 1))

/-- Row `p` of `a` scaled by `s p`, plus the bias row: at `(p, q)`, `a(p, q) · s(p) + b(q)`. -/
def scaleBias (a : FVec Ideal ⟨2, ![N, M]⟩ .f32) (s : FVec Ideal ⟨1, ![N]⟩ .f32) (b : FVec Ideal ⟨1, ![M]⟩ .f32) :
    FVec Ideal ⟨2, ![N, M]⟩ .f32 :=
  fun j => a j * s (ix1 (j 0)) + b (ix1 (j 1))

/-- The same, followed by the positive part: at `(p, q)`, `max (a(p, q) · s(p) + b(q)) 0`. -/
def scaleBiasRelu (a : FVec Ideal ⟨2, ![N, M]⟩ .f32) (s : FVec Ideal ⟨1, ![N]⟩ .f32) (b : FVec Ideal ⟨1, ![M]⟩ .f32) :
    FVec Ideal ⟨2, ![N, M]⟩ .f32 :=
  fun j => max (a j * s (ix1 (j 0)) + b (ix1 (j 1))) (Ideal.ofBits .f32 0x00000000#32)

theorem scaleMatmul_apply (h : FVec Ideal ⟨2, ![N, K]⟩ .f32) (s : FVec Ideal ⟨1, ![N]⟩ .f32) (w : FVec Ideal ⟨2, ![K, M]⟩ .f32)
    (p : Fin N) (q : Fin M) :
    scaleMatmul h s w (ix2 p q) = ∑ k : Fin K, (h (ix2 p k) * s (ix1 p)) * w (ix2 k q) := rfl

theorem scaleBias_apply (a : FVec Ideal ⟨2, ![N, M]⟩ .f32) (s : FVec Ideal ⟨1, ![N]⟩ .f32) (b : FVec Ideal ⟨1, ![M]⟩ .f32)
    (p : Fin N) (q : Fin M) : scaleBias a s b (ix2 p q) = a (ix2 p q) * s (ix1 p) + b (ix1 q) := rfl

theorem scaleBiasRelu_apply (a : FVec Ideal ⟨2, ![N, M]⟩ .f32) (s : FVec Ideal ⟨1, ![N]⟩ .f32) (b : FVec Ideal ⟨1, ![M]⟩ .f32)
    (p : Fin N) (q : Fin M) :
    scaleBiasRelu a s b (ix2 p q) = max (a (ix2 p q) * s (ix1 p) + b (ix1 q)) (Ideal.ofBits .f32 0x00000000#32) := rfl

end Defs

/-! ## A bias row broadcast down the rows -/

/-- A row `[1, B]` broadcast down `A` rows reads, at `(p, q)`, the row at `(0, q)`. -/
theorem rowBroadcast_apply {A B : Nat} {α : Type} (v : (⟨2, ![1, B]⟩ : Shape).Idx → α)
    (h : (⟨2, ![1, B]⟩ : Shape).Broadcasts ⟨2, ![A, B]⟩) (hB : B ≠ 1) (p : Fin A) (q : Fin B) :
    broadcastTo ⟨2, ![A, B]⟩ v h (ix2 p q) = v (ix2 0 q) := by
  refine broadcastTo_apply v h (ix2 p q) (ix2 0 q) fun a => ?_
  match a with
  | ⟨0, _⟩ => exact (if_pos rfl).symm
  | ⟨1, _⟩ => exact (if_neg hB).symm

end Cert.GraphConv

end
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.Tile.lean ====
/-
  The two dense steps of a graph-convolution layer, in the two spellings the programs use, each read at an element.

  ON A ROW TILE. The tile holds `R` consecutive rows: `x0` the rows, `x1` the column of their factors, `x2` the whole
  matrix (or the bias as one row). The scaling is a product with the column broadcast along the lanes; a change of
  float format is the identity on the extended reals; the product into the zero accumulator is the plain sum.

  ON THE WHOLE ARRAY. The factors are a vector, broadcast to a column and then along the lanes; the bias is a vector,
  broadcast to a row and then down the rows; the matrix product is a contraction of axis 1 with axis 0.

  Both are the index-by-index definitions of `Spec`.
-/
import proofs.«163560_j2585570312241_1_alg».proof.Proof.Spec
import proofs.«163560_j2585570312241_1_alg».proof.Proof.LibRowwise

noncomputable section

namespace Cert.GraphConv

open Idealize.ShloMosaic Idealize.ShloMosaic.ValueIdx Cert.Lib.Rowwise

/-! ## Broadcasts by named axes, read at an element -/

section Broadcasts

variable {A B : Nat} {α : Type}

/-- A vector placed on axis 0 of a column reads, at `(p, u)`, the vector at `p`. -/
theorem toColumn_apply (v : (⟨1, ![A]⟩ : Shape).Idx → α) (h : (⟨1, ![A]⟩ : Shape).BroadcastsInDim ⟨2, ![A, 1]⟩ ![0])
    (p : Fin A) (u : Fin 1) : broadcastInDim ⟨2, ![A, 1]⟩ ![0] h v (ix2 p u) = v (ix1 p) := by
  refine broadcastInDim_apply ![0] h v (ix2 p u) (ix1 p) fun a => ?_
  match a with
  | ⟨0, _⟩ =>
    show p.val = if A = 1 then 0 else p.val
    have := p.isLt
    split <;> omega

/-- A column placed on both axes of a matrix reads, at `(p, q)`, the column at `(p, 0)`. -/
theorem columnToMatrix_apply (v : (⟨2, ![A, 1]⟩ : Shape).Idx → α) (h : (⟨2, ![A, 1]⟩ : Shape).BroadcastsInDim ⟨2, ![A, B]⟩ ![0, 1])
    (p : Fin A) (q : Fin B) : broadcastInDim ⟨2, ![A, B]⟩ ![0, 1] h v (ix2 p q) = v (ix2 p 0) := by
  refine broadcastInDim_apply ![0, 1] h v (ix2 p q) (ix2 p 0) fun a => ?_
  match a with
  | ⟨0, _⟩ =>
    show p.val = if A = 1 then 0 else p.val
    have := p.isLt
    split <;> omega
  | ⟨1, _⟩ => exact (if_pos rfl).symm

/-- A vector placed on axis 1 of a row reads, at `(u, q)`, the vector at `q`. -/
theorem toRow_apply (v : (⟨1, ![B]⟩ : Shape).Idx → α) (h : (⟨1, ![B]⟩ : Shape).BroadcastsInDim ⟨2, ![1, B]⟩ ![1])
    (u : Fin 1) (q : Fin B) : broadcastInDim ⟨2, ![1, B]⟩ ![1] h v (ix2 u q) = v (ix1 q) := by
  refine broadcastInDim_apply ![1] h v (ix2 u q) (ix1 q) fun a => ?_
  match a with
  | ⟨0, _⟩ =>
    show q.val = if B = 1 then 0 else q.val
    have := q.isLt
    split <;> omega

/-- A row placed on both axes of a matrix reads, at `(p, q)`, the row at `(0, q)`. -/
theorem rowToMatrix_apply (v : (⟨2, ![1, B]⟩ : Shape).Idx → α) (h : (⟨2, ![1, B]⟩ : Shape).BroadcastsInDim ⟨2, ![A, B]⟩ ![0, 1])
    (p : Fin A) (q : Fin B) : broadcastInDim ⟨2, ![A, B]⟩ ![0, 1] h v (ix2 p q) = v (ix2 0 q) := by
  refine broadcastInDim_apply ![0, 1] h v (ix2 p q) (ix2 0 q) fun a => ?_
  match a with
  | ⟨0, _⟩ => exact (if_pos rfl).symm
  | ⟨1, _⟩ =>
    show q.val = if B = 1 then 0 else q.val
    have := q.isLt
    split <;> omega

/-- A length-`B` vector cast to a row `[1, B]` reads, at `(u, q)`, the vector at `q`. -/
theorem row_apply (v : (⟨1, ![B]⟩ : Shape).Idx → α) (h : (⟨1, ![B]⟩ : Shape).ShapeCasts ⟨2, ![1, B]⟩) (u : Fin 1) (q : Fin B) :
    shapeCast ⟨2, ![1, B]⟩ v h (ix2 u q) = v (ix1 q) := by
  refine shapeCast_apply v h (ix2 u q) (ix1 q) ?_
  rw [Shape.rowMajor_val_one, Shape.rowMajor_val_two]
  have hu : u.val = 0 := by omega
  show q.val = u.val * B + q.val
  rw [hu]; omega

end Broadcasts

/-! ## The host's contraction of axis 1 with axis 0 -/

/-- The plain contraction on the host, read at `(p, q)`: the sum over the contracted coordinate. -/
theorem plain_dotGeneral_apply {M K N : Nat} {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral (DotDims.plain M K N) prec sched a b (ix2 p q) = ∑ k : Fin K, a (ix2 p k) * b (ix2 k q) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-! ## On a row tile -/

section Tile

variable {R K M : Nat}

/-- The tile's rows scaled by their column of factors, times the matrix, at `(p, q)`. -/
theorem tile_scaleMatmul (D : DotDims ⟨2, ![R, K]⟩ ⟨2, ![K, M]⟩ ⟨2, ![R, M]⟩) (hD : D = DotDims.plain R K M)
    (x0 : FVec Ideal ⟨2, ![R, K]⟩ .f32) (x1 : FVec Ideal ⟨2, ![R, 1]⟩ .f32) (x2 : FVec Ideal ⟨2, ![K, M]⟩ .f32)
    (hb : (⟨2, ![R, 1]⟩ : Shape).Broadcasts ⟨2, ![R, K]⟩) (hlt : FTy.bf16.bits < FTy.f32.bits) (hR : R ≠ 1)
    (p : Fin R) (q : Fin M) :
    FloatOps.matmul D none (truncf .bf16 (mulf x0 (broadcastTo ⟨2, ![R, K]⟩ x1 hb)) hlt) (truncf .bf16 x2 hlt)
        (constant ⟨2, ![R, M]⟩ .f32 0x00000000#32) (ix2 p q)
      = ∑ k : Fin K, (x0 (ix2 p k) * x1 (ix2 p 0)) * x2 (ix2 k q) := by
  subst hD
  rw [plain_matmul_zero_apply]
  refine Finset.sum_congr rfl fun k _ => ?_
  rw [truncf_apply, truncf_apply, mulf_apply, columnBroadcast_apply x1 hb hR]

/-- The tile's rows scaled by their column of factors, plus the bias row, at `(p, q)`. -/
theorem tile_scaleBias (x0 : FVec Ideal ⟨2, ![R, M]⟩ .f32) (x1 : FVec Ideal ⟨2, ![R, 1]⟩ .f32) (x2 : FVec Ideal ⟨2, ![1, M]⟩ .f32)
    (hb : (⟨2, ![R, 1]⟩ : Shape).Broadcasts ⟨2, ![R, M]⟩) (hr : (⟨2, ![1, M]⟩ : Shape).Broadcasts ⟨2, ![R, M]⟩)
    (hR : R ≠ 1) (hM : M ≠ 1) (p : Fin R) (q : Fin M) :
    addf (mulf x0 (broadcastTo ⟨2, ![R, M]⟩ x1 hb)) (broadcastTo ⟨2, ![R, M]⟩ x2 hr) (ix2 p q)
      = x0 (ix2 p q) * x1 (ix2 p 0) + x2 (ix2 0 q) := by
  rw [addf_apply, mulf_apply, columnBroadcast_apply x1 hb hR, rowBroadcast_apply x2 hr hM]

end Tile

/-! ## On the whole array -/

section Whole

variable {N K M : Nat}

/-- The host's scaling by a broadcast vector of factors and its contraction with the matrix are `scaleMatmul`. -/
theorem host_scaleMatmul (D : DotDims ⟨2, ![N, K]⟩ ⟨2, ![K, M]⟩ ⟨2, ![N, M]⟩) (hD : D = DotDims.plain N K M)
    (prec : Option ContractPrecision) (sched : HostSchedule)
    (h : FVec Ideal ⟨2, ![N, K]⟩ .f32) (s : FVec Ideal ⟨1, ![N]⟩ .f32) (w : FVec Ideal ⟨2, ![K, M]⟩ .f32)
    (h1 : (⟨1, ![N]⟩ : Shape).BroadcastsInDim ⟨2, ![N, 1]⟩ ![0]) (h2 : (⟨2, ![N, 1]⟩ : Shape).BroadcastsInDim ⟨2, ![N, K]⟩ ![0, 1]) :
    FloatOps.dotGeneral D prec sched (mulf h (broadcastInDim ⟨2, ![N, K]⟩ ![0, 1] h2 (broadcastInDim ⟨2, ![N, 1]⟩ ![0] h1 s))) w
      = scaleMatmul h s w := by
  subst hD
  funext j
  obtain ⟨p, q, rfl⟩ : ∃ (p : Fin N) (q : Fin M), j = ix2 p q := ⟨j 0, j 1, eq_ix2 j⟩
  rw [plain_dotGeneral_apply, scaleMatmul_apply]
  refine Finset.sum_congr rfl fun k _ => ?_
  rw [mulf_apply, columnToMatrix_apply, toColumn_apply]

/-- The host's scaling by a broadcast vector of factors plus the broadcast bias is `scaleBias`. -/
theorem host_scaleBias (a : FVec Ideal ⟨2, ![N, M]⟩ .f32) (s : FVec Ideal ⟨1, ![N]⟩ .f32) (b : FVec Ideal ⟨1, ![M]⟩ .f32)
    (h1 : (⟨1, ![N]⟩ : Shape).BroadcastsInDim ⟨2, ![N, 1]⟩ ![0]) (h2 : (⟨2, ![N, 1]⟩ : Shape).BroadcastsInDim ⟨2, ![N, M]⟩ ![0, 1])
    (h3 : (⟨1, ![M]⟩ : Shape).BroadcastsInDim ⟨2, ![1, M]⟩ ![1]) (h4 : (⟨2, ![1, M]⟩ : Shape).BroadcastsInDim ⟨2, ![N, M]⟩ ![0, 1]) :
    addf (mulf a (broadcastInDim ⟨2, ![N, M]⟩ ![0, 1] h2 (broadcastInDim ⟨2, ![N, 1]⟩ ![0] h1 s)))
        (broadcastInDim ⟨2, ![N, M]⟩ ![0, 1] h4 (broadcastInDim ⟨2, ![1, M]⟩ ![1] h3 b))
      = scaleBias a s b := by
  funext j
  obtain ⟨p, q, rfl⟩ : ∃ (p : Fin N) (q : Fin M), j = ix2 p q := ⟨j 0, j 1, eq_ix2 j⟩
  rw [addf_apply, mulf_apply, columnToMatrix_apply, toColumn_apply, rowToMatrix_apply, toRow_apply, scaleBias_apply]

/-- The same followed by the host's maximum with the broadcast zero is `scaleBiasRelu`. -/
theorem host_scaleBiasRelu (a : FVec Ideal ⟨2, ![N, M]⟩ .f32) (s : FVec Ideal ⟨1, ![N]⟩ .f32) (b : FVec Ideal ⟨1, ![M]⟩ .f32)
    (h1 : (⟨1, ![N]⟩ : Shape).BroadcastsInDim ⟨2, ![N, 1]⟩ ![0]) (h2 : (⟨2, ![N, 1]⟩ : Shape).BroadcastsInDim ⟨2, ![N, M]⟩ ![0, 1])
    (h3 : (⟨1, ![M]⟩ : Shape).BroadcastsInDim ⟨2, ![1, M]⟩ ![1]) (h4 : (⟨2, ![1, M]⟩ : Shape).BroadcastsInDim ⟨2, ![N, M]⟩ ![0, 1])
    (h0 : (⟨0, ![]⟩ : Shape).BroadcastsInDim ⟨2, ![N, M]⟩ ![]) :
    maximumf (addf (mulf a (broadcastInDim ⟨2, ![N, M]⟩ ![0, 1] h2 (broadcastInDim ⟨2, ![N, 1]⟩ ![0] h1 s)))
        (broadcastInDim ⟨2, ![N, M]⟩ ![0, 1] h4 (broadcastInDim ⟨2, ![1, M]⟩ ![1] h3 b)))
        (broadcastInDim ⟨2, ![N, M]⟩ ![] h0 (constant (F := Ideal) ⟨0, ![]⟩ .f32 0x00000000#32))
      = scaleBiasRelu a s b := by
  rw [host_scaleBias]
  funext j
  rw [maximumf_apply, broadcastInDim_apply ![] h0 _ j ix0 (fun a => a.elim0), constant_apply]
  rfl

end Whole

end Cert.GraphConv

end
-- ==== Proof.Shared.lean ====
/-
  The three-layer graph-convolution network as ONE function of the argument arrays.

  Both programs compute the degree factors and the aggregation over the edges on the host, by the same operations;
  those are named here once and never opened: `degree` counts the edges at each node (a scatter-add of ones),
  `degFactor` is the reciprocal square root of the degree (at least one) where the degree is positive and zero elsewhere,
  and `aggregate` gathers the rows at the edges' sources (a negative index counted from the end) and adds them into
  the rows of the edges' destinations. The dense steps between them are `Spec`'s.
-/
import proofs.«163560_j2585570312241_1_alg».proof.Proof.Gen.KernelIdeal
import proofs.«163560_j2585570312241_1_alg».proof.Proof.Spec

noncomputable section

namespace Cert.GraphConv

open Idealize.ShloMosaic Idealize.ShloMosaic.ValueIdx Cert.KernelIdeal Cert.KernelIdeal.Facts₀ Cert.KernelIdeal.Facts

/-- A column `[N, 1]` as the vector of its entries. -/
def colVec {N : Nat} {α : Type} (v : (⟨2, ![N, 1]⟩ : Shape).Idx → α) : (⟨1, ![N]⟩ : Shape).Idx → α :=
  fun i => v (ix2 (i 0) 0)

/-- A row `[1, M]` as the vector of its entries. -/
def rowVec {M : Nat} {α : Type} (v : (⟨2, ![1, M]⟩ : Shape).Idx → α) : (⟨1, ![M]⟩ : Shape).Idx → α :=
  fun i => v (ix2 0 (i 0))

theorem colVec_apply {N : Nat} {α : Type} (v : (⟨2, ![N, 1]⟩ : Shape).Idx → α) (p : Fin N) : colVec v (ix1 p) = v (ix2 p 0) := rfl

theorem rowVec_apply {M : Nat} {α : Type} (v : (⟨2, ![1, M]⟩ : Shape).Idx → α) (q : Fin M) : rowVec v (ix1 q) = v (ix2 0 q) := rfl

/-- One index per edge. -/
abbrev Edges : Type := IVec S1600000 32

/-- The number of edges at each node: ones added up at the edges' indices. -/
def degree (idx : Edges) : FVec Ideal S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 idx)
    (broadcastInDim S1600000 ![] bcast_S_S1600000 (constant S_ .f32 0x3F800000#32))

/-- The degree factor: `1 / sqrt (max degree 1)` where the degree is positive, zero elsewhere. -/
def degFactor (idx : Edges) : FVec Ideal S100000 .f32 :=
  select (cmpf (F := Ideal) .ogt (degree idx) (broadcastInDim S100000 ![] bcast_S_S100000 (constant S_ .f32 0x00000000#32)))
    (Host.rsqrt (maximumf (degree idx) (broadcastInDim S100000 ![] bcast_S_S100000 (constant S_ .f32 0x3F800000#32))))
    (broadcastInDim S100000 ![] bcast_S_S100000 (id (constant S_ .f32 0x00000000#32)))

/-- An edge's source index, a negative one counted from the end. -/
def wrapIndex (idx : Edges) : Edges :=
  select (cmpi .slt idx (broadcastInDim S1600000 ![] bcast_S_S1600000 (constantI S_ 32 0#32)))
    (addi idx (broadcastInDim S1600000 ![] bcast_S_S1600000 (constantI S_ 32 100000#32))) idx

/-- The rows of `x` at the edges' sources, added into the rows of the edges' destinations (128 lanes). -/
def aggregate128 (x : FVec Ideal S100000x128 .f32) (src dst : Edges) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 x
      (broadcastInDim S1600000x1 ![0] bcast_S1600000_S1600000x1_0 (wrapIndex src)))

/-- The same aggregation over 40 lanes. -/
def aggregate40 (x : FVec Ideal S100000x40 .f32) (src dst : Edges) : FVec Ideal S100000x40 .f32 :=
  Host.scatterAdd scatter_S100000x40_S1600000x1_S1600000x40_1_0_0_1
    (broadcastInDim S100000x40 ![] bcast_S_S100000x40 (constant S_ .f32 0x00000000#32))
    (broadcastInDim S1600000x1 ![0] bcast_S1600000_S1600000x1_0 dst)
    (Host.gather gather_S100000x40_S1600000x1_S1600000x40_1_0_n_n_0_1_140 x
      (broadcastInDim S1600000x1 ![0] bcast_S1600000_S1600000x1_0 (wrapIndex src)))

/-- The network: three layers, each a scaling by the out-degree factor and a matrix product, the aggregation over the
    edges, and a scaling by the in-degree factor plus the bias; the positive part after the first two. -/
def network (feat : FVec Ideal S100000x128 .f32) (src dst : Edges) (W0 : FVec Ideal S128x128 .f32) (b0 : FVec Ideal S128 .f32)
    (W1 : FVec Ideal S128x128 .f32) (b1 : FVec Ideal S128 .f32) (W2 : FVec Ideal S128x40 .f32) (b2 : FVec Ideal S40 .f32) :
    FVec Ideal S100000x40 .f32 :=
  scaleBias (aggregate40 (scaleMatmul
    (scaleBiasRelu (aggregate128 (scaleMatmul
      (scaleBiasRelu (aggregate128 (scaleMatmul feat (degFactor src) W0) src dst) (degFactor dst) b0)
      (degFactor src) W1) src dst) (degFactor dst) b1)
    (degFactor src) W2) src dst) (degFactor dst) b2

end Cert.GraphConv

end
-- ==== Proof.Final0.lean ====
/-
  The first layer's scale-and-multiply, read off its run: the result array after the 20 row tiles is `scaleMatmul` of
  the arrays the region was entered with.

  Tile `t` holds rows `5000 t … 5000 t + 4999`: of the feature rows and of the column of factors it reads those rows, of
  the weight matrix all of it, and it writes those rows of the result; the tiles' row ranges partition the 100000 rows.
-/
import proofs.«163560_j2585570312241_1_alg».proof.Proof.Gen.KernelIdeal.Frame
import proofs.«163560_j2585570312241_1_alg».proof.Proof.Tile
import proofs.«163560_j2585570312241_1_alg».proof.Proof.Shared

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GraphConv Cert.Lib.Rowwise

variable (V : (c : Dev nD) → (b : Ref sig .tc) → Buf (Elt Ideal) ((c : Thread nD τ).loc b))

theorem hz0 : (![0, 0] : Fin 2 → Nat) = fun _ => 0 := funext fun a => by fin_cases a <;> rfl

/-- The arrays region 0 is entered with: the feature rows, the column of out-degree factors, the weight matrix. -/
abbrev rows0 (c : Dev nD) : FVec Ideal S100000x128 .f32 := V c main_arg0
abbrev col0 (c : Dev nD) : FVec Ideal S100000x1 .f32 := V c main_v19
abbrev mat0 (c : Dev nD) : FVec Ideal S128x128 .f32 := V c main_arg3

/-- What the result array is shown to hold. -/
abbrev val0 (c : Dev nD) : FVec Ideal S100000x128 .f32 := scaleMatmul (rows0 V c) (colVec (col0 V c)) (mat0 V c)

/-- The printed index maps over the grid: tile `t` is row block `t` of the rows, the factors and the result, and the one
    block of the matrix. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The tile's payload at an element, when the tile's three loads are rows `5000 n …` of the arrays: the whole-array
    function at row `5000 n + p`. -/
theorem pay0_eq (A : FVec Ideal S100000x128 .f32) (s : FVec Ideal S100000x1 .f32) (w : FVec Ideal S128x128 .f32)
    (x0 : FVec Ideal S5000x128 .f32) (x1 : FVec Ideal S5000x1 .f32) (x2 : FVec Ideal S128x128 .f32) (n : Nat) (hn : n < 20)
    (h0 : ∀ (p : Fin 5000) (k : Fin 128), x0 (ix2 p k) = A (ix2 ⟨n * 5000 + p.val, by omega⟩ k))
    (h1 : ∀ p : Fin 5000, x1 (ix2 p 0) = s (ix2 ⟨n * 5000 + p.val, by omega⟩ 0))
    (h2 : ∀ (k : Fin 128) (q : Fin 128), x2 (ix2 k q) = w (ix2 k q))
    (p : Fin 5000) (q : Fin 128) :
    k0_pay1 x0 x1 x2 (ix2 p q) = scaleMatmul A (colVec s) w (ix2 ⟨n * 5000 + p.val, by omega⟩ q) := by
  unfold k0_pay1
  simp only [shapeCast_self]
  refine (tile_scaleMatmul dot_S5000x128_S128x128_S5000x128_1_0_0_1_n_n (eq_plain _ rfl rfl rfl rfl rfl rfl) x0 x1 x2
    _ _ (by decide) p q).trans ?_
  rw [scaleMatmul_apply]
  refine Finset.sum_congr rfl fun k _ => ?_
  rw [h0, h1, h2, colVec_apply]

/-- WHAT TILE `t` WRITES BACK is block `t` of the whole-array function: each of its three loads is the rows
    `5000 t …` of its array (the matrix whole), and the written block is those rows of the result. -/
theorem flushed0_eq (c : Dev nD) (t : Fin cfg0.N) :
    (dat0 V c).flushed 3 t = ((cfg0.win 3).blk t).view.read (Elt Ideal) (val0 V c) := by
  show (cfg0.win 3).cut (grid0.coords t) ((dat0 V c).after 3 t) = _
  rw [after0_3]
  unfold out0_3
  rw [View.canon_unit_zero hz0]
  simp only [View.ld_unit_zero (S := S5000x128) hz0, View.ld_unit_zero (S := S5000x1) hz0, View.ld_unit_zero (S := S128x128) hz0]
  obtain ⟨e00, e01, e10, e11, e20, e21, e30, e31⟩ := idx_facts0 t
  have ht : t.val < 20 := lt_of_lt_of_eq t.isLt N_0
  funext j
  have hj0 : (j 0).val < 5000 := (j 0).isLt
  have hj1 : (j 1).val < 128 := (j 1).isLt
  have hj : j = ix2 (⟨(j 0).val, hj0⟩ : Fin 5000) (⟨(j 1).val, hj1⟩ : Fin 128) :=
    funext fun a => Fin.ext (by match a with | ⟨0, _⟩ => rfl | ⟨1, _⟩ => rfl)
  show k0_pay1 (iblk0 V c 0 t) (iblk0 V c 1 t) (iblk0 V c 2 t) j = val0 V c (((cfg0.win 3).blk t).view.emb j)
  rw [hj]
  refine (pay0_eq (rows0 V c) (col0 V c) (mat0 V c) (iblk0 V c 0 t) (iblk0 V c 1 t) (iblk0 V c 2 t) t.val ht ?_ ?_ ?_
    ⟨(j 0).val, hj0⟩ ⟨(j 1).val, hj1⟩).trans ?_
  · intro p k
    show V c main_arg0 (((cfg0.win 0).blk t).view.emb (ix2 p k)) = V c main_arg0 _
    refine congrArg (V c main_arg0) (funext fun a => Fin.ext ?_)
    match a with
    | ⟨0, _⟩ => show win0_0.index t (0 : Fin 2) * 5000 + 1 * p.val = t.val * 5000 + p.val; rw [e00]; omega
    | ⟨1, _⟩ => show win0_0.index t (1 : Fin 2) * 128 + 1 * k.val = k.val; rw [e01]; omega
  · intro p
    show V c main_v19 (((cfg0.win 1).blk t).view.emb (ix2 p 0)) = V c main_v19 _
    refine congrArg (V c main_v19) (funext fun a => Fin.ext ?_)
    match a with
    | ⟨0, _⟩ => show win0_1.index t (0 : Fin 2) * 5000 + 1 * p.val = t.val * 5000 + p.val; rw [e10]; omega
    | ⟨1, _⟩ => show win0_1.index t (1 : Fin 2) * 1 + 1 * 0 = 0; rw [e11]
  · intro k q
    show V c main_arg3 (((cfg0.win 2).blk t).view.emb (ix2 k q)) = V c main_arg3 _
    refine congrArg (V c main_arg3) (funext fun a => Fin.ext ?_)
    match a with
    | ⟨0, _⟩ => show win0_2.index t (0 : Fin 2) * 128 + 1 * k.val = k.val; rw [e20]; omega
    | ⟨1, _⟩ => show win0_2.index t (1 : Fin 2) * 128 + 1 * q.val = q.val; rw [e21]; omega
  · refine congrArg (val0 V c) (funext fun a => Fin.ext ?_)
    match a with
    | ⟨0, _⟩ => show t.val * 5000 + (j 0).val = win0_3.index t (0 : Fin 2) * 5000 + 1 * (j 0).val; rw [e30]; omega
    | ⟨1, _⟩ => show (j 1).val = win0_3.index t (1 : Fin 2) * 128 + 1 * (j 1).val; rw [e31]; omega

/-- An index of the result array is in tile `t`'s block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v20).slice (win0_3.rect t)).set ↔ _
  rw [View.set_slice_whole, Rect.mem_set_unit]
  exact Iff.rfl

/-- The tiles' row ranges cover the array: row `r` is in tile `r / 5000`. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  refine ⟨⟨(i 0).val / 5000, by omega⟩, flush0_3 _, ?_⟩
  rw [mem_blk0]
  obtain ⟨e00, e01, e10, e11, e20, e21, e30, e31⟩ := idx_facts0 ⟨(i 0).val / 5000, by omega⟩
  intro a
  match a with
  | ⟨0, _⟩ =>
    show win0_3.index _ (0 : Fin 2) * 5000 ≤ (i 0).val ∧ (i 0).val < win0_3.index _ (0 : Fin 2) * 5000 + 5000
    rw [e30]; dsimp only; omega
  | ⟨1, _⟩ =>
    show win0_3.index _ (1 : Fin 2) * 128 ≤ (i 1).val ∧ (i 1).val < win0_3.index _ (1 : Fin 2) * 128 + 128
    rw [e31]; omega

/-- THE RESULT ARRAY after region 0: `scaleMatmul` of the arrays the region was entered with. -/
theorem final0 (c : Dev nD) : (dat0 V c).arrAt 3 cfg0.N = val0 V c :=
  (dat0 V c).arrAt_eq_of_cover 3 (val0 V c) (fun t _ => flushed0_eq V c t) cover0

end Cert.KernelIdeal.Regions

end
-- ==== Proof.Final1.lean ====
/-
  The first layer's scale-and-bias with the positive part, read off its run: the result array after the 20 row tiles is
  `scaleBiasRelu` of the arrays the region was entered with.

  Tile `t` holds rows `5000 t … 5000 t + 4999`: of the aggregated rows and of the column of factors it reads those rows,
  of the bias its one row, and it writes those rows of the result; the tiles' row ranges partition the 100000 rows.
-/
import proofs.«163560_j2585570312241_1_alg».proof.Proof.Gen.KernelIdeal.Frame
import proofs.«163560_j2585570312241_1_alg».proof.Proof.Tile
import proofs.«163560_j2585570312241_1_alg».proof.Proof.Shared

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GraphConv Cert.Lib.Rowwise

variable (V : (c : Dev nD) → (b : Ref sig .tc) → Buf (Elt Ideal) ((c : Thread nD τ).loc b))

theorem hz1 : (![0, 0] : Fin 2 → Nat) = fun _ => 0 := funext fun a => by fin_cases a <;> rfl

/-- The arrays region 1 is entered with: the aggregated rows, the column of in-degree factors, the bias as one row. -/
abbrev rows1 (c : Dev nD) : FVec Ideal S100000x128 .f32 := V c main_v30
abbrev col1 (c : Dev nD) : FVec Ideal S100000x1 .f32 := V c main_v31
abbrev bias1 (c : Dev nD) : FVec Ideal S1x128 .f32 := V c main_v32

/-- What the result array is shown to hold. -/
abbrev val1 (c : Dev nD) : FVec Ideal S100000x128 .f32 := scaleBiasRelu (rows1 V c) (colVec (col1 V c)) (rowVec (bias1 V c))

/-- The printed index maps over the grid: tile `t` is row block `t` of the rows, the factors and the result, and the one
    block of the bias row. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The tile's payload at an element, when the tile's loads are rows `5000 n …` of the arrays and the bias row: the
    whole-array function at row `5000 n + p`. -/
theorem pay1_eq (A : FVec Ideal S100000x128 .f32) (s : FVec Ideal S100000x1 .f32) (b : FVec Ideal S1x128 .f32)
    (x0 : FVec Ideal S5000x128 .f32) (x1 : FVec Ideal S5000x1 .f32) (x2 : FVec Ideal S1x128 .f32) (n : Nat) (hn : n < 20)
    (h0 : ∀ (p : Fin 5000) (q : Fin 128), x0 (ix2 p q) = A (ix2 ⟨n * 5000 + p.val, by omega⟩ q))
    (h1 : ∀ p : Fin 5000, x1 (ix2 p 0) = s (ix2 ⟨n * 5000 + p.val, by omega⟩ 0))
    (h2 : ∀ q : Fin 128, x2 (ix2 0 q) = b (ix2 0 q))
    (p : Fin 5000) (q : Fin 128) :
    k1_pay1 x0 x1 x2 (ix2 p q) = scaleBiasRelu A (colVec s) (rowVec b) (ix2 ⟨n * 5000 + p.val, by omega⟩ q) := by
  unfold k1_pay1
  simp only [shapeCast_self]
  rw [maximumf_apply, tile_scaleBias x0 x1 x2 _ _ (by decide) (by decide) p q, scaleBiasRelu_apply, h0, h1, h2,
    colVec_apply, rowVec_apply]
  rfl

/-- WHAT TILE `t` WRITES BACK is block `t` of the whole-array function: its loads are the rows `5000 t …` of the
    aggregated rows and of the factors and the bias row, and the written block is those rows of the result. -/
theorem flushed1_eq (c : Dev nD) (t : Fin cfg1.N) :
    (dat1 V c).flushed 3 t = ((cfg1.win 3).blk t).view.read (Elt Ideal) (val1 V c) := by
  show (cfg1.win 3).cut (grid1.coords t) ((dat1 V c).after 3 t) = _
  rw [after1_3]
  unfold out1_3
  rw [View.canon_unit_zero hz1]
  simp only [View.ld_unit_zero (S := S5000x128) hz1, View.ld_unit_zero (S := S5000x1) hz1, View.ld_unit_zero (S := S1x128) hz1]
  obtain ⟨e00, e01, e10, e11, e20, e21, e30, e31⟩ := idx_facts1 t
  have ht : t.val < 20 := lt_of_lt_of_eq t.isLt N_1
  funext j
  have hj0 : (j 0).val < 5000 := (j 0).isLt
  have hj1 : (j 1).val < 128 := (j 1).isLt
  have hj : j = ix2 (⟨(j 0).val, hj0⟩ : Fin 5000) (⟨(j 1).val, hj1⟩ : Fin 128) :=
    funext fun a => Fin.ext (by match a with | ⟨0, _⟩ => rfl | ⟨1, _⟩ => rfl)
  show k1_pay1 (iblk1 V c 0 t) (iblk1 V c 1 t) (iblk1 V c 2 t) j = val1 V c (((cfg1.win 3).blk t).view.emb j)
  rw [hj]
  refine (pay1_eq (rows1 V c) (col1 V c) (bias1 V c) (iblk1 V c 0 t) (iblk1 V c 1 t) (iblk1 V c 2 t) t.val ht ?_ ?_ ?_
    ⟨(j 0).val, hj0⟩ ⟨(j 1).val, hj1⟩).trans ?_
  · intro p q
    show V c main_v30 (((cfg1.win 0).blk t).view.emb (ix2 p q)) = V c main_v30 _
    refine congrArg (V c main_v30) (funext fun a => Fin.ext ?_)
    match a with
    | ⟨0, _⟩ => show win1_0.index t (0 : Fin 2) * 5000 + 1 * p.val = t.val * 5000 + p.val; rw [e00]; omega
    | ⟨1, _⟩ => show win1_0.index t (1 : Fin 2) * 128 + 1 * q.val = q.val; rw [e01]; omega
  · intro p
    show V c main_v31 (((cfg1.win 1).blk t).view.emb (ix2 p 0)) = V c main_v31 _
    refine congrArg (V c main_v31) (funext fun a => Fin.ext ?_)
    match a with
    | ⟨0, _⟩ => show win1_1.index t (0 : Fin 2) * 5000 + 1 * p.val = t.val * 5000 + p.val; rw [e10]; omega
    | ⟨1, _⟩ => show win1_1.index t (1 : Fin 2) * 1 + 1 * 0 = 0; rw [e11]
  · intro q
    show V c main_v32 (((cfg1.win 2).blk t).view.emb (ix2 0 q)) = V c main_v32 _
    refine congrArg (V c main_v32) (funext fun a => Fin.ext ?_)
    match a with
    | ⟨0, _⟩ => show win1_2.index t (0 : Fin 2) * 1 + 1 * 0 = 0; rw [e20]
    | ⟨1, _⟩ => show win1_2.index t (1 : Fin 2) * 128 + 1 * q.val = q.val; rw [e21]; omega
  · refine congrArg (val1 V c) (funext fun a => Fin.ext ?_)
    match a with
    | ⟨0, _⟩ => show t.val * 5000 + (j 0).val = win1_3.index t (0 : Fin 2) * 5000 + 1 * (j 0).val; rw [e30]; omega
    | ⟨1, _⟩ => show (j 1).val = win1_3.index t (1 : Fin 2) * 128 + 1 * (j 1).val; rw [e31]; omega

/-- An index of the result array is in tile `t`'s block iff each coordinate is in the block's range on its axis. -/
theorem mem_blk1 (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v33).slice (win1_3.rect t)).set ↔ _
  rw [View.set_slice_whole, Rect.mem_set_unit]
  exact Iff.rfl

/-- The tiles' row ranges cover the array: row `r` is in tile `r / 5000`. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  refine ⟨⟨(i 0).val / 5000, by omega⟩, flush1_3 _, ?_⟩
  rw [mem_blk1]
  obtain ⟨e00, e01, e10, e11, e20, e21, e30, e31⟩ := idx_facts1 ⟨(i 0).val / 5000, by omega⟩
  intro a
  match a with
  | ⟨0, _⟩ =>
    show win1_3.index _ (0 : Fin 2) * 5000 ≤ (i 0).val ∧ (i 0).val < win1_3.index _ (0 : Fin 2) * 5000 + 5000
    rw [e30]; dsimp only; omega
  | ⟨1, _⟩ =>
    show win1_3.index _ (1 : Fin 2) * 128 ≤ (i 1).val ∧ (i 1).val < win1_3.index _ (1 : Fin 2) * 128 + 128
    rw [e31]; omega

/-- THE RESULT ARRAY after region 1: `scaleBiasRelu` of the arrays the region was entered with. -/
theorem final1 (c : Dev nD) : (dat1 V c).arrAt 3 cfg1.N = val1 V c :=
  (dat1 V c).arrAt_eq_of_cover 3 (val1 V c) (fun t _ => flushed1_eq V c t) cover1

end Cert.KernelIdeal.Regions

end
-- ==== Proof.Final2.lean ====
/-
  The second layer's scale-and-multiply, read off its run: the result array after the 20 row tiles is `scaleMatmul` of
  the arrays the region was entered with.

  Tile `t` holds rows `5000 t … 5000 t + 4999`: of the input rows and of the column of factors it reads those rows, of
  the weight matrix all of it, and it writes those rows of the result; the tiles' row ranges partition the 100000 rows.
-/
import proofs.«163560_j2585570312241_1_alg».proof.Proof.Gen.KernelIdeal.Frame
import proofs.«163560_j2585570312241_1_alg».proof.Proof.Tile
import proofs.«163560_j2585570312241_1_alg».proof.Proof.Shared

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GraphConv Cert.Lib.Rowwise

variable (V : (c : Dev nD) → (b : Ref sig .tc) → Buf (Elt Ideal) ((c : Thread nD τ).loc b))

theorem hz2 : (![0, 0] : Fin 2 → Nat) = fun _ => 0 := funext fun a => by fin_cases a <;> rfl

/-- The arrays region 2 is entered with: the first layer's output rows, the column of out-degree factors, the second weight matrix. -/
abbrev rows2 (c : Dev nD) : FVec Ideal S100000x128 .f32 := V c main_v33
abbrev col2 (c : Dev nD) : FVec Ideal S100000x1 .f32 := V c main_v34
abbrev mat2 (c : Dev nD) : FVec Ideal S128x128 .f32 := V c main_arg5

/-- What the result array is shown to hold. -/
abbrev val2 (c : Dev nD) : FVec Ideal S100000x128 .f32 := scaleMatmul (rows2 V c) (colVec (col2 V c)) (mat2 V c)

/-- The printed index maps over the grid: tile `t` is row block `t` of the rows, the factors and the result, and the one
    block of the matrix. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The tile's payload at an element, when the tile's three loads are rows `5000 n …` of the arrays: the whole-array
    function at row `5000 n + p`. -/
theorem pay2_eq (A : FVec Ideal S100000x128 .f32) (s : FVec Ideal S100000x1 .f32) (w : FVec Ideal S128x128 .f32)
    (x0 : FVec Ideal S5000x128 .f32) (x1 : FVec Ideal S5000x1 .f32) (x2 : FVec Ideal S128x128 .f32) (n : Nat) (hn : n < 20)
    (h0 : ∀ (p : Fin 5000) (k : Fin 128), x0 (ix2 p k) = A (ix2 ⟨n * 5000 + p.val, by omega⟩ k))
    (h1 : ∀ p : Fin 5000, x1 (ix2 p 0) = s (ix2 ⟨n * 5000 + p.val, by omega⟩ 0))
    (h2 : ∀ (k : Fin 128) (q : Fin 128), x2 (ix2 k q) = w (ix2 k q))
    (p : Fin 5000) (q : Fin 128) :
    k2_pay1 x0 x1 x2 (ix2 p q) = scaleMatmul A (colVec s) w (ix2 ⟨n * 5000 + p.val, by omega⟩ q) := by
  unfold k2_pay1
  simp only [shapeCast_self]
  refine (tile_scaleMatmul dot_S5000x128_S128x128_S5000x128_1_0_0_1_n_n (eq_plain _ rfl rfl rfl rfl rfl rfl) x0 x1 x2
    _ _ (by decide) p q).trans ?_
  rw [scaleMatmul_apply]
  refine Finset.sum_congr rfl fun k _ => ?_
  rw [h0, h1, h2, colVec_apply]

/-- WHAT TILE `t` WRITES BACK is block `t` of the whole-array function: each of its three loads is the rows
    `5000 t …` of its array (the matrix whole), and the written block is those rows of the result. -/
theorem flushed2_eq (c : Dev nD) (t : Fin cfg2.N) :
    (dat2 V c).flushed 3 t = ((cfg2.win 3).blk t).view.read (Elt Ideal) (val2 V c) := by
  show (cfg2.win 3).cut (grid2.coords t) ((dat2 V c).after 3 t) = _
  rw [after2_3]
  unfold out2_3
  rw [View.canon_unit_zero hz2]
  simp only [View.ld_unit_zero (S := S5000x128) hz2, View.ld_unit_zero (S := S5000x1) hz2, View.ld_unit_zero (S := S128x128) hz2]
  obtain ⟨e00, e01, e10, e11, e20, e21, e30, e31⟩ := idx_facts2 t
  have ht : t.val < 20 := lt_of_lt_of_eq t.isLt N_2
  funext j
  have hj0 : (j 0).val < 5000 := (j 0).isLt
  have hj1 : (j 1).val < 128 := (j 1).isLt
  have hj : j = ix2 (⟨(j 0).val, hj0⟩ : Fin 5000) (⟨(j 1).val, hj1⟩ : Fin 128) :=
    funext fun a => Fin.ext (by match a with | ⟨0, _⟩ => rfl | ⟨1, _⟩ => rfl)
  show k2_pay1 (iblk2 V c 0 t) (iblk2 V c 1 t) (iblk2 V c 2 t) j = val2 V c (((cfg2.win 3).blk t).view.emb j)
  rw [hj]
  refine (pay2_eq (rows2 V c) (col2 V c) (mat2 V c) (iblk2 V c 0 t) (iblk2 V c 1 t) (iblk2 V c 2 t) t.val ht ?_ ?_ ?_
    ⟨(j 0).val, hj0⟩ ⟨(j 1).val, hj1⟩).trans ?_
  · intro p k
    show V c main_v33 (((cfg2.win 0).blk t).view.emb (ix2 p k)) = V c main_v33 _
    refine congrArg (V c main_v33) (funext fun a => Fin.ext ?_)
    match a with
    | ⟨0, _⟩ => show win2_0.index t (0 : Fin 2) * 5000 + 1 * p.val = t.val * 5000 + p.val; rw [e00]; omega
    | ⟨1, _⟩ => show win2_0.index t (1 : Fin 2) * 128 + 1 * k.val = k.val; rw [e01]; omega
  · intro p
    show V c main_v34 (((cfg2.win 1).blk t).view.emb (ix2 p 0)) = V c main_v34 _
    refine congrArg (V c main_v34) (funext fun a => Fin.ext ?_)
    match a with
    | ⟨0, _⟩ => show win2_1.index t (0 : Fin 2) * 5000 + 1 * p.val = t.val * 5000 + p.val; rw [e10]; omega
    | ⟨1, _⟩ => show win2_1.index t (1 : Fin 2) * 1 + 1 * 0 = 0; rw [e11]
  · intro k q
    show V c main_arg5 (((cfg2.win 2).blk t).view.emb (ix2 k q)) = V c main_arg5 _
    refine congrArg (V c main_arg5) (funext fun a => Fin.ext ?_)
    match a with
    | ⟨0, _⟩ => show win2_2.index t (0 : Fin 2) * 128 + 1 * k.val = k.val; rw [e20]; omega
    | ⟨1, _⟩ => show win2_2.index t (1 : Fin 2) * 128 + 1 * q.val = q.val; rw [e21]; omega
  · refine congrArg (val2 V c) (funext fun a => Fin.ext ?_)
    match a with
    | ⟨0, _⟩ => show t.val * 5000 + (j 0).val = win2_3.index t (0 : Fin 2) * 5000 + 1 * (j 0).val; rw [e30]; omega
    | ⟨1, _⟩ => show (j 1).val = win2_3.index t (1 : Fin 2) * 128 + 1 * (j 1).val; rw [e31]; omega

/-- An index of the result array is in tile `t`'s block iff each coordinate is in the block's range on its axis. -/
theorem mem_blk2 (t : Fin cfg2.N) (i : S100000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v35).slice (win2_3.rect t)).set ↔ _
  rw [View.set_slice_whole, Rect.mem_set_unit]
  exact Iff.rfl

/-- The tiles' row ranges cover the array: row `r` is in tile `r / 5000`. -/
theorem cover2 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 20 := N_2
  refine ⟨⟨(i 0).val / 5000, by omega⟩, flush2_3 _, ?_⟩
  rw [mem_blk2]
  obtain ⟨e00, e01, e10, e11, e20, e21, e30, e31⟩ := idx_facts2 ⟨(i 0).val / 5000, by omega⟩
  intro a
  match a with
  | ⟨0, _⟩ =>
    show win2_3.index _ (0 : Fin 2) * 5000 ≤ (i 0).val ∧ (i 0).val < win2_3.index _ (0 : Fin 2) * 5000 + 5000
    rw [e30]; dsimp only; omega
  | ⟨1, _⟩ =>
    show win2_3.index _ (1 : Fin 2) * 128 ≤ (i 1).val ∧ (i 1).val < win2_3.index _ (1 : Fin 2) * 128 + 128
    rw [e31]; omega

/-- THE RESULT ARRAY after region 2: `scaleMatmul` of the arrays the region was entered with. -/
theorem final2 (c : Dev nD) : (dat2 V c).arrAt 3 cfg2.N = val2 V c :=
  (dat2 V c).arrAt_eq_of_cover 3 (val2 V c) (fun t _ => flushed2_eq V c t) cover2

end Cert.KernelIdeal.Regions

end
-- ==== Proof.Final3.lean ====
/-
  The second layer's scale-and-bias with the positive part, read off its run: the result array after the 20 row tiles is
  `scaleBiasRelu` of the arrays the region was entered with.

  Tile `t` holds rows `5000 t … 5000 t + 4999`: of the aggregated rows and of the column of factors it reads those rows,
  of the bias its one row, and it writes those rows of the result; the tiles' row ranges partition the 100000 rows.
-/
import proofs.«163560_j2585570312241_1_alg».proof.Proof.Gen.KernelIdeal.Frame
import proofs.«163560_j2585570312241_1_alg».proof.Proof.Tile
import proofs.«163560_j2585570312241_1_alg».proof.Proof.Shared

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GraphConv Cert.Lib.Rowwise

variable (V : (c : Dev nD) → (b : Ref sig .tc) → Buf (Elt Ideal) ((c : Thread nD τ).loc b))

theorem hz3 : (![0, 0] : Fin 2 → Nat) = fun _ => 0 := funext fun a => by fin_cases a <;> rfl

/-- The arrays region 3 is entered with: the aggregated rows, the column of in-degree factors, the bias as one row. -/
abbrev rows3 (c : Dev nD) : FVec Ideal S100000x128 .f32 := V c main_v45
abbrev col3 (c : Dev nD) : FVec Ideal S100000x1 .f32 := V c main_v46
abbrev bias3 (c : Dev nD) : FVec Ideal S1x128 .f32 := V c main_v47

/-- What the result array is shown to hold. -/
abbrev val3 (c : Dev nD) : FVec Ideal S100000x128 .f32 := scaleBiasRelu (rows3 V c) (colVec (col3 V c)) (rowVec (bias3 V c))

/-- The printed index maps over the grid: tile `t` is row block `t` of the rows, the factors and the result, and the one
    block of the bias row. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The tile's payload at an element, when the tile's loads are rows `5000 n …` of the arrays and the bias row: the
    whole-array function at row `5000 n + p`. -/
theorem pay3_eq (A : FVec Ideal S100000x128 .f32) (s : FVec Ideal S100000x1 .f32) (b : FVec Ideal S1x128 .f32)
    (x0 : FVec Ideal S5000x128 .f32) (x1 : FVec Ideal S5000x1 .f32) (x2 : FVec Ideal S1x128 .f32) (n : Nat) (hn : n < 20)
    (h0 : ∀ (p : Fin 5000) (q : Fin 128), x0 (ix2 p q) = A (ix2 ⟨n * 5000 + p.val, by omega⟩ q))
    (h1 : ∀ p : Fin 5000, x1 (ix2 p 0) = s (ix2 ⟨n * 5000 + p.val, by omega⟩ 0))
    (h2 : ∀ q : Fin 128, x2 (ix2 0 q) = b (ix2 0 q))
    (p : Fin 5000) (q : Fin 128) :
    k3_pay1 x0 x1 x2 (ix2 p q) = scaleBiasRelu A (colVec s) (rowVec b) (ix2 ⟨n * 5000 + p.val, by omega⟩ q) := by
  unfold k3_pay1
  simp only [shapeCast_self]
  rw [maximumf_apply, tile_scaleBias x0 x1 x2 _ _ (by decide) (by decide) p q, scaleBiasRelu_apply, h0, h1, h2,
    colVec_apply, rowVec_apply]
  rfl

/-- WHAT TILE `t` WRITES BACK is block `t` of the whole-array function: its loads are the rows `5000 t …` of the
    aggregated rows and of the factors and the bias row, and the written block is those rows of the result. -/
theorem flushed3_eq (c : Dev nD) (t : Fin cfg3.N) :
    (dat3 V c).flushed 3 t = ((cfg3.win 3).blk t).view.read (Elt Ideal) (val3 V c) := by
  show (cfg3.win 3).cut (grid3.coords t) ((dat3 V c).after 3 t) = _
  rw [after3_3]
  unfold out3_3
  rw [View.canon_unit_zero hz3]
  simp only [View.ld_unit_zero (S := S5000x128) hz3, View.ld_unit_zero (S := S5000x1) hz3, View.ld_unit_zero (S := S1x128) hz3]
  obtain ⟨e00, e01, e10, e11, e20, e21, e30, e31⟩ := idx_facts3 t
  have ht : t.val < 20 := lt_of_lt_of_eq t.isLt N_3
  funext j
  have hj0 : (j 0).val < 5000 := (j 0).isLt
  have hj1 : (j 1).val < 128 := (j 1).isLt
  have hj : j = ix2 (⟨(j 0).val, hj0⟩ : Fin 5000) (⟨(j 1).val, hj1⟩ : Fin 128) :=
    funext fun a => Fin.ext (by match a with | ⟨0, _⟩ => rfl | ⟨1, _⟩ => rfl)
  show k3_pay1 (iblk3 V c 0 t) (iblk3 V c 1 t) (iblk3 V c 2 t) j = val3 V c (((cfg3.win 3).blk t).view.emb j)
  rw [hj]
  refine (pay3_eq (rows3 V c) (col3 V c) (bias3 V c) (iblk3 V c 0 t) (iblk3 V c 1 t) (iblk3 V c 2 t) t.val ht ?_ ?_ ?_
    ⟨(j 0).val, hj0⟩ ⟨(j 1).val, hj1⟩).trans ?_
  · intro p q
    show V c main_v45 (((cfg3.win 0).blk t).view.emb (ix2 p q)) = V c main_v45 _
    refine congrArg (V c main_v45) (funext fun a => Fin.ext ?_)
    match a with
    | ⟨0, _⟩ => show win3_0.index t (0 : Fin 2) * 5000 + 1 * p.val = t.val * 5000 + p.val; rw [e00]; omega
    | ⟨1, _⟩ => show win3_0.index t (1 : Fin 2) * 128 + 1 * q.val = q.val; rw [e01]; omega
  · intro p
    show V c main_v46 (((cfg3.win 1).blk t).view.emb (ix2 p 0)) = V c main_v46 _
    refine congrArg (V c main_v46) (funext fun a => Fin.ext ?_)
    match a with
    | ⟨0, _⟩ => show win3_1.index t (0 : Fin 2) * 5000 + 1 * p.val = t.val * 5000 + p.val; rw [e10]; omega
    | ⟨1, _⟩ => show win3_1.index t (1 : Fin 2) * 1 + 1 * 0 = 0; rw [e11]
  · intro q
    show V c main_v47 (((cfg3.win 2).blk t).view.emb (ix2 0 q)) = V c main_v47 _
    refine congrArg (V c main_v47) (funext fun a => Fin.ext ?_)
    match a with
    | ⟨0, _⟩ => show win3_2.index t (0 : Fin 2) * 1 + 1 * 0 = 0; rw [e20]
    | ⟨1, _⟩ => show win3_2.index t (1 : Fin 2) * 128 + 1 * q.val = q.val; rw [e21]; omega
  · refine congrArg (val3 V c) (funext fun a => Fin.ext ?_)
    match a with
    | ⟨0, _⟩ => show t.val * 5000 + (j 0).val = win3_3.index t (0 : Fin 2) * 5000 + 1 * (j 0).val; rw [e30]; omega
    | ⟨1, _⟩ => show (j 1).val = win3_3.index t (1 : Fin 2) * 128 + 1 * (j 1).val; rw [e31]; omega

/-- An index of the result array is in tile `t`'s block iff each coordinate is in the block's range on its axis. -/
theorem mem_blk3 (t : Fin cfg3.N) (i : S100000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v48).slice (win3_3.rect t)).set ↔ _
  rw [View.set_slice_whole, Rect.mem_set_unit]
  exact Iff.rfl

/-- The tiles' row ranges cover the array: row `r` is in tile `r / 5000`. -/
theorem cover3 (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  have hN : cfg3.N = 20 := N_3
  refine ⟨⟨(i 0).val / 5000, by omega⟩, flush3_3 _, ?_⟩
  rw [mem_blk3]
  obtain ⟨e00, e01, e10, e11, e20, e21, e30, e31⟩ := idx_facts3 ⟨(i 0).val / 5000, by omega⟩
  intro a
  match a with
  | ⟨0, _⟩ =>
    show win3_3.index _ (0 : Fin 2) * 5000 ≤ (i 0).val ∧ (i 0).val < win3_3.index _ (0 : Fin 2) * 5000 + 5000
    rw [e30]; dsimp only; omega
  | ⟨1, _⟩ =>
    show win3_3.index _ (1 : Fin 2) * 128 ≤ (i 1).val ∧ (i 1).val < win3_3.index _ (1 : Fin 2) * 128 + 128
    rw [e31]; omega

/-- THE RESULT ARRAY after region 3: `scaleBiasRelu` of the arrays the region was entered with. -/
theorem final3 (c : Dev nD) : (dat3 V c).arrAt 3 cfg3.N = val3 V c :=
  (dat3 V c).arrAt_eq_of_cover 3 (val3 V c) (fun t _ => flushed3_eq V c t) cover3

end Cert.KernelIdeal.Regions

end
-- ==== Proof.Final4.lean ====
/-
  The third layer's scale-and-multiply, read off its run: the result array after the 20 row tiles is `scaleMatmul` of
  the arrays the region was entered with.

  Tile `t` holds rows `5000 t … 5000 t + 4999`: of the input rows and of the column of factors it reads those rows, of
  the weight matrix all of it, and it writes those rows of the result; the tiles' row ranges partition the 100000 rows.
-/
import proofs.«163560_j2585570312241_1_alg».proof.Proof.Gen.KernelIdeal.Frame
import proofs.«163560_j2585570312241_1_alg».proof.Proof.Tile
import proofs.«163560_j2585570312241_1_alg».proof.Proof.Shared

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GraphConv Cert.Lib.Rowwise

variable (V : (c : Dev nD) → (b : Ref sig .tc) → Buf (Elt Ideal) ((c : Thread nD τ).loc b))

theorem hz4 : (![0, 0] : Fin 2 → Nat) = fun _ => 0 := funext fun a => by fin_cases a <;> rfl

/-- The arrays region 4 is entered with: the second layer's output rows, the column of out-degree factors, the third weight matrix (128 by 40). -/
abbrev rows4 (c : Dev nD) : FVec Ideal S100000x128 .f32 := V c main_v48
abbrev col4 (c : Dev nD) : FVec Ideal S100000x1 .f32 := V c main_v49
abbrev mat4 (c : Dev nD) : FVec Ideal S128x40 .f32 := V c main_arg7

/-- What the result array is shown to hold. -/
abbrev val4 (c : Dev nD) : FVec Ideal S100000x40 .f32 := scaleMatmul (rows4 V c) (colVec (col4 V c)) (mat4 V c)

/-- The printed index maps over the grid: tile `t` is row block `t` of the rows, the factors and the result, and the one
    block of the matrix. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The tile's payload at an element, when the tile's three loads are rows `5000 n …` of the arrays: the whole-array
    function at row `5000 n + p`. -/
theorem pay4_eq (A : FVec Ideal S100000x128 .f32) (s : FVec Ideal S100000x1 .f32) (w : FVec Ideal S128x40 .f32)
    (x0 : FVec Ideal S5000x128 .f32) (x1 : FVec Ideal S5000x1 .f32) (x2 : FVec Ideal S128x40 .f32) (n : Nat) (hn : n < 20)
    (h0 : ∀ (p : Fin 5000) (k : Fin 128), x0 (ix2 p k) = A (ix2 ⟨n * 5000 + p.val, by omega⟩ k))
    (h1 : ∀ p : Fin 5000, x1 (ix2 p 0) = s (ix2 ⟨n * 5000 + p.val, by omega⟩ 0))
    (h2 : ∀ (k : Fin 128) (q : Fin 40), x2 (ix2 k q) = w (ix2 k q))
    (p : Fin 5000) (q : Fin 40) :
    k4_pay1 x0 x1 x2 (ix2 p q) = scaleMatmul A (colVec s) w (ix2 ⟨n * 5000 + p.val, by omega⟩ q) := by
  unfold k4_pay1
  simp only [shapeCast_self]
  refine (tile_scaleMatmul dot_S5000x128_S128x40_S5000x40_1_0_0_1_n_n (eq_plain _ rfl rfl rfl rfl rfl rfl) x0 x1 x2
    _ _ (by decide) p q).trans ?_
  rw [scaleMatmul_apply]
  refine Finset.sum_congr rfl fun k _ => ?_
  rw [h0, h1, h2, colVec_apply]

/-- WHAT TILE `t` WRITES BACK is block `t` of the whole-array function: each of its three loads is the rows
    `5000 t …` of its array (the matrix whole), and the written block is those rows of the result. -/
theorem flushed4_eq (c : Dev nD) (t : Fin cfg4.N) :
    (dat4 V c).flushed 3 t = ((cfg4.win 3).blk t).view.read (Elt Ideal) (val4 V c) := by
  show (cfg4.win 3).cut (grid4.coords t) ((dat4 V c).after 3 t) = _
  rw [after4_3]
  unfold out4_3
  rw [View.canon_unit_zero hz4]
  simp only [View.ld_unit_zero (S := S5000x128) hz4, View.ld_unit_zero (S := S5000x1) hz4, View.ld_unit_zero (S := S128x40) hz4]
  obtain ⟨e00, e01, e10, e11, e20, e21, e30, e31⟩ := idx_facts4 t
  have ht : t.val < 20 := lt_of_lt_of_eq t.isLt N_4
  funext j
  have hj0 : (j 0).val < 5000 := (j 0).isLt
  have hj1 : (j 1).val < 40 := (j 1).isLt
  have hj : j = ix2 (⟨(j 0).val, hj0⟩ : Fin 5000) (⟨(j 1).val, hj1⟩ : Fin 40) :=
    funext fun a => Fin.ext (by match a with | ⟨0, _⟩ => rfl | ⟨1, _⟩ => rfl)
  show k4_pay1 (iblk4 V c 0 t) (iblk4 V c 1 t) (iblk4 V c 2 t) j = val4 V c (((cfg4.win 3).blk t).view.emb j)
  rw [hj]
  refine (pay4_eq (rows4 V c) (col4 V c) (mat4 V c) (iblk4 V c 0 t) (iblk4 V c 1 t) (iblk4 V c 2 t) t.val ht ?_ ?_ ?_
    ⟨(j 0).val, hj0⟩ ⟨(j 1).val, hj1⟩).trans ?_
  · intro p k
    show V c main_v48 (((cfg4.win 0).blk t).view.emb (ix2 p k)) = V c main_v48 _
    refine congrArg (V c main_v48) (funext fun a => Fin.ext ?_)
    match a with
    | ⟨0, _⟩ => show win4_0.index t (0 : Fin 2) * 5000 + 1 * p.val = t.val * 5000 + p.val; rw [e00]; omega
    | ⟨1, _⟩ => show win4_0.index t (1 : Fin 2) * 128 + 1 * k.val = k.val; rw [e01]; omega
  · intro p
    show V c main_v49 (((cfg4.win 1).blk t).view.emb (ix2 p 0)) = V c main_v49 _
    refine congrArg (V c main_v49) (funext fun a => Fin.ext ?_)
    match a with
    | ⟨0, _⟩ => show win4_1.index t (0 : Fin 2) * 5000 + 1 * p.val = t.val * 5000 + p.val; rw [e10]; omega
    | ⟨1, _⟩ => show win4_1.index t (1 : Fin 2) * 1 + 1 * 0 = 0; rw [e11]
  · intro k q
    show V c main_arg7 (((cfg4.win 2).blk t).view.emb (ix2 k q)) = V c main_arg7 _
    refine congrArg (V c main_arg7) (funext fun a => Fin.ext ?_)
    match a with
    | ⟨0, _⟩ => show win4_2.index t (0 : Fin 2) * 128 + 1 * k.val = k.val; rw [e20]; omega
    | ⟨1, _⟩ => show win4_2.index t (1 : Fin 2) * 40 + 1 * q.val = q.val; rw [e21]; omega
  · refine congrArg (val4 V c) (funext fun a => Fin.ext ?_)
    match a with
    | ⟨0, _⟩ => show t.val * 5000 + (j 0).val = win4_3.index t (0 : Fin 2) * 5000 + 1 * (j 0).val; rw [e30]; omega
    | ⟨1, _⟩ => show (j 1).val = win4_3.index t (1 : Fin 2) * 40 + 1 * (j 1).val; rw [e31]; omega

/-- An index of the result array is in tile `t`'s block iff each coordinate is in the block's range on its axis. -/
theorem mem_blk4 (t : Fin cfg4.N) (i : S100000x40.Idx) :
    i ∈ ((cfg4.win 3).blk t).view.set ↔ ∀ a : Fin 2, win4_3.index t a * S5000x40.size a ≤ (i a).val
      ∧ (i a).val < win4_3.index t a * S5000x40.size a + S5000x40.size a := by
  show i ∈ ((View.whole main_v50).slice (win4_3.rect t)).set ↔ _
  rw [View.set_slice_whole, Rect.mem_set_unit]
  exact Iff.rfl

/-- The tiles' row ranges cover the array: row `r` is in tile `r / 5000`. -/
theorem cover4 (i : S100000x40.Idx) :
    ∃ t : Fin cfg4.N, (cfg4.win 3).flush t = true ∧ i ∈ ((cfg4.win 3).blk t).view.set := by
  have hi0 : (i 0).val < 100000 := (i 0).isLt
  have hi1 : (i 1).val < 40 := (i 1).isLt
  have hN : cfg4.N = 20 := N_4
  refine ⟨⟨(i 0).val / 5000, by omega⟩, flush4_3 _, ?_⟩
  rw [mem_blk4]
  obtain ⟨e00, e01, e10, e11, e20, e21, e30, e31⟩ := idx_facts4 ⟨(i 0).val / 5000, by omega⟩
  intro a
  match a with
  | ⟨0, _⟩ =>
    show win4_3.index _ (0 : Fin 2) * 5000 ≤ (i 0).val ∧ (i 0).val < win4_3.index _ (0 : Fin 2) * 5000 + 5000
    rw [e30]; dsimp only; omega
  | ⟨1, _⟩ =>
    show win4_3.index _ (1 : Fin 2) * 40 ≤ (i 1).val ∧ (i 1).val < win4_3.index _ (1 : Fin 2) * 40 + 40
    rw [e31]; omega

/-- THE RESULT ARRAY after region 4: `scaleMatmul` of the arrays the region was entered with. -/
theorem final4 (c : Dev nD) : (dat4 V c).arrAt 3 cfg4.N = val4 V c :=
  (dat4 V c).arrAt_eq_of_cover 3 (val4 V c) (fun t _ => flushed4_eq V c t) cover4

end Cert.KernelIdeal.Regions

end
-- ==== Proof.Final5.lean ====
/-
  The third layer's scale-and-bias (no positive part: the network's result), read off its run: the result array after the 20 row tiles is
  `scaleBias` of the arrays the region was entered with.

  Tile `t` holds rows `5000 t … 5000 t + 4999`: of the aggregated rows and of the column of factors it reads those rows,
  of the bias its one row, and it writes those rows of the result; the tiles' row ranges partition the 100000 rows.
-/
import proofs.«163560_j2585570312241_1_alg».proof.Proof.Gen.KernelIdeal.Frame
import proofs.«163560_j2585570312241_1_alg».proof.Proof.Tile
import proofs.«163560_j2585570312241_1_alg».proof.Proof.Shared

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GraphConv Cert.Lib.Rowwise

variable (V : (c : Dev nD) → (b : Ref sig .tc) → Buf (Elt Ideal) ((c : Thread nD τ).loc b))

theorem hz5 : (![0, 0] : Fin 2 → Nat) = fun _ => 0 := funext fun a => by fin_cases a <;> rfl

/-- The arrays region 5 is entered with: the aggregated rows, the column of in-degree factors, the bias as one row. -/
abbrev rows5 (c : Dev nD) : FVec Ideal S100000x40 .f32 := V c main_v60
abbrev col5 (c : Dev nD) : FVec Ideal S100000x1 .f32 := V c main_v61
abbrev bias5 (c : Dev nD) : FVec Ideal S1x40 .f32 := V c main_v62

/-- What the result array is shown to hold. -/
abbrev val5 (c : Dev nD) : FVec Ideal S100000x40 .f32 := scaleBias (rows5 V c) (colVec (col5 V c)) (rowVec (bias5 V c))

/-- The printed index maps over the grid: tile `t` is row block `t` of the rows, the factors and the result, and the one
    block of the bias row. -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The tile's payload at an element, when the tile's loads are rows `5000 n …` of the arrays and the bias row: the
    whole-array function at row `5000 n + p`. -/
theorem pay5_eq (A : FVec Ideal S100000x40 .f32) (s : FVec Ideal S100000x1 .f32) (b : FVec Ideal S1x40 .f32)
    (x0 : FVec Ideal S5000x40 .f32) (x1 : FVec Ideal S5000x1 .f32) (x2 : FVec Ideal S1x40 .f32) (n : Nat) (hn : n < 20)
    (h0 : ∀ (p : Fin 5000) (q : Fin 40), x0 (ix2 p q) = A (ix2 ⟨n * 5000 + p.val, by omega⟩ q))
    (h1 : ∀ p : Fin 5000, x1 (ix2 p 0) = s (ix2 ⟨n * 5000 + p.val, by omega⟩ 0))
    (h2 : ∀ q : Fin 40, x2 (ix2 0 q) = b (ix2 0 q))
    (p : Fin 5000) (q : Fin 40) :
    k5_pay1 x0 x1 x2 (ix2 p q) = scaleBias A (colVec s) (rowVec b) (ix2 ⟨n * 5000 + p.val, by omega⟩ q) := by
  unfold k5_pay1
  simp only [shapeCast_self]
  rw [tile_scaleBias x0 x1 x2 _ _ (by decide) (by decide) p q, scaleBias_apply, h0, h1, h2,
    colVec_apply, rowVec_apply]

/-- WHAT TILE `t` WRITES BACK is block `t` of the whole-array function: its loads are the rows `5000 t …` of the
    aggregated rows and of the factors and the bias row, and the written block is those rows of the result. -/
theorem flushed5_eq (c : Dev nD) (t : Fin cfg5.N) :
    (dat5 V c).flushed 3 t = ((cfg5.win 3).blk t).view.read (Elt Ideal) (val5 V c) := by
  show (cfg5.win 3).cut (grid5.coords t) ((dat5 V c).after 3 t) = _
  rw [after5_3]
  unfold out5_3
  rw [View.canon_unit_zero hz5]
  simp only [View.ld_unit_zero (S := S5000x40) hz5, View.ld_unit_zero (S := S5000x1) hz5, View.ld_unit_zero (S := S1x40) hz5]
  obtain ⟨e00, e01, e10, e11, e20, e21, e30, e31⟩ := idx_facts5 t
  have ht : t.val < 20 := lt_of_lt_of_eq t.isLt N_5
  funext j
  have hj0 : (j 0).val < 5000 := (j 0).isLt
  have hj1 : (j 1).val < 40 := (j 1).isLt
  have hj : j = ix2 (⟨(j 0).val, hj0⟩ : Fin 5000) (⟨(j 1).val, hj1⟩ : Fin 40) :=
    funext fun a => Fin.ext (by match a with | ⟨0, _⟩ => rfl | ⟨1, _⟩ => rfl)
  show k5_pay1 (iblk5 V c 0 t) (iblk5 V c 1 t) (iblk5 V c 2 t) j = val5 V c (((cfg5.win 3).blk t).view.emb j)
  rw [hj]
  refine (pay5_eq (rows5 V c) (col5 V c) (bias5 V c) (iblk5 V c 0 t) (iblk5 V c 1 t) (iblk5 V c 2 t) t.val ht ?_ ?_ ?_
    ⟨(j 0).val, hj0⟩ ⟨(j 1).val, hj1⟩).trans ?_
  · intro p q
    show V c main_v60 (((cfg5.win 0).blk t).view.emb (ix2 p q)) = V c main_v60 _
    refine congrArg (V c main_v60) (funext fun a => Fin.ext ?_)
    match a with
    | ⟨0, _⟩ => show win5_0.index t (0 : Fin 2) * 5000 + 1 * p.val = t.val * 5000 + p.val; rw [e00]; omega
    | ⟨1, _⟩ => show win5_0.index t (1 : Fin 2) * 40 + 1 * q.val = q.val; rw [e01]; omega
  · intro p
    show V c main_v61 (((cfg5.win 1).blk t).view.emb (ix2 p 0)) = V c main_v61 _
    refine congrArg (V c main_v61) (funext fun a => Fin.ext ?_)
    match a with
    | ⟨0, _⟩ => show win5_1.index t (0 : Fin 2) * 5000 + 1 * p.val = t.val * 5000 + p.val; rw [e10]; omega
    | ⟨1, _⟩ => show win5_1.index t (1 : Fin 2) * 1 + 1 * 0 = 0; rw [e11]
  · intro q
    show V c main_v62 (((cfg5.win 2).blk t).view.emb (ix2 0 q)) = V c main_v62 _
    refine congrArg (V c main_v62) (funext fun a => Fin.ext ?_)
    match a with
    | ⟨0, _⟩ => show win5_2.index t (0 : Fin 2) * 1 + 1 * 0 = 0; rw [e20]
    | ⟨1, _⟩ => show win5_2.index t (1 : Fin 2) * 40 + 1 * q.val = q.val; rw [e21]; omega
  · refine congrArg (val5 V c) (funext fun a => Fin.ext ?_)
    match a with
    | ⟨0, _⟩ => show t.val * 5000 + (j 0).val = win5_3.index t (0 : Fin 2) * 5000 + 1 * (j 0).val; rw [e30]; omega
    | ⟨1, _⟩ => show (j 1).val = win5_3.index t (1 : Fin 2) * 40 + 1 * (j 1).val; rw [e31]; omega

/-- An index of the result array is in tile `t`'s block iff each coordinate is in the block's range on its axis. -/
theorem mem_blk5 (t : Fin cfg5.N) (i : S100000x40.Idx) :
    i ∈ ((cfg5.win 3).blk t).view.set ↔ ∀ a : Fin 2, win5_3.index t a * S5000x40.size a ≤ (i a).val
      ∧ (i a).val < win5_3.index t a * S5000x40.size a + S5000x40.size a := by
  show i ∈ ((View.whole main_v63).slice (win5_3.rect t)).set ↔ _
  rw [View.set_slice_whole, Rect.mem_set_unit]
  exact Iff.rfl

/-- The tiles' row ranges cover the array: row `r` is in tile `r / 5000`. -/
theorem cover5 (i : S100000x40.Idx) :
    ∃ t : Fin cfg5.N, (cfg5.win 3).flush t = true ∧ i ∈ ((cfg5.win 3).blk t).view.set := by
  have hi0 : (i 0).val < 100000 := (i 0).isLt
  have hi1 : (i 1).val < 40 := (i 1).isLt
  have hN : cfg5.N = 20 := N_5
  refine ⟨⟨(i 0).val / 5000, by omega⟩, flush5_3 _, ?_⟩
  rw [mem_blk5]
  obtain ⟨e00, e01, e10, e11, e20, e21, e30, e31⟩ := idx_facts5 ⟨(i 0).val / 5000, by omega⟩
  intro a
  match a with
  | ⟨0, _⟩ =>
    show win5_3.index _ (0 : Fin 2) * 5000 ≤ (i 0).val ∧ (i 0).val < win5_3.index _ (0 : Fin 2) * 5000 + 5000
    rw [e30]; dsimp only; omega
  | ⟨1, _⟩ =>
    show win5_3.index _ (1 : Fin 2) * 40 ≤ (i 1).val ∧ (i 1).val < win5_3.index _ (1 : Fin 2) * 40 + 40
    rw [e31]; omega

/-- THE RESULT ARRAY after region 5: `scaleBias` of the arrays the region was entered with. -/
theorem final5 (c : Dev nD) : (dat5 V c).arrAt 3 cfg5.N = val5 V c :=
  (dat5 V c).arrAt_eq_of_cover 3 (val5 V c) (fun t _ => flushed5_eq V c t) cover5

end Cert.KernelIdeal.Regions

end
-- ==== Proof.Chain.lean ====
/-
  The kernel program's result as a function of the argument arrays: the contents of the result buffer at the last
  boundary of @main, folded back through the six regions and the host stretches between them.

  The first stretch computes the two degree factors from the edge lists. Then, three times over: a region scales the
  rows by the out-degree factor and multiplies by the layer's matrix; a host stretch aggregates over the edges and
  reshapes the in-degree factor to a column and the bias to a row; a region scales by the in-degree factor and adds the
  bias (with the positive part in the first two layers); a host stretch reshapes the out-degree factor again. The edge
  lists, the later layers' parameters and the two factors are read again long after they were made: no stretch and no
  region in between writes them.
-/
import proofs.«163560_j2585570312241_1_alg».proof.Proof.KernelRun
import proofs.«163560_j2585570312241_1_alg».proof.Proof.Final0
import proofs.«163560_j2585570312241_1_alg».proof.Proof.Final1
import proofs.«163560_j2585570312241_1_alg».proof.Proof.Final2
import proofs.«163560_j2585570312241_1_alg».proof.Proof.Final3
import proofs.«163560_j2585570312241_1_alg».proof.Proof.Final4
import proofs.«163560_j2585570312241_1_alg».proof.Proof.Final5

set_option maxRecDepth 16384

noncomputable section

namespace Cert.KernelIdeal.Chain

open Idealize.ShloMosaic Idealize.ShloMosaic.TcCoe Idealize.ShloMosaic.ValueIdx Idealize.SL.Sem Idealize.ShloMosaic.StableHlo
open Cert.KernelIdeal Cert.KernelIdeal.Gen Cert.KernelIdeal.Regions Cert.GraphConv Cert.Lib.Rowwise

/-! ## Columns and rows made by reshapes -/

/-- A vector reshaped to a column, read back as the vector of the column's entries. -/
theorem colVec_shapeCast {N : Nat} {α : Type} (x : (⟨1, ![N]⟩ : Shape).Idx → α) (h : (⟨1, ![N]⟩ : Shape).ShapeCasts ⟨2, ![N, 1]⟩) :
    colVec (shapeCast ⟨2, ![N, 1]⟩ x h) = x := by
  funext i
  obtain ⟨p, rfl⟩ : ∃ p : Fin N, i = ix1 p := ⟨i 0, eq_ix1 i⟩
  rw [colVec_apply]
  exact column_apply x h p 0

/-- A vector reshaped to a row, read back as the vector of the row's entries. -/
theorem rowVec_shapeCast {M : Nat} {α : Type} (x : (⟨1, ![M]⟩ : Shape).Idx → α) (h : (⟨1, ![M]⟩ : Shape).ShapeCasts ⟨2, ![1, M]⟩) :
    rowVec (shapeCast ⟨2, ![1, M]⟩ x h) = x := by
  funext i
  obtain ⟨q, rfl⟩ : ∃ q : Fin M, i = ix1 q := ⟨i 0, eq_ix1 i⟩
  rw [rowVec_apply]
  exact row_apply x h 0 q

variable (m : (ℓ : Loc nD τ sig) → Buf (Elt Ideal) ℓ) (ρ : Dev nD → PrngReg)

/-! ## The argument arrays and the layers' values -/

abbrev feat (c : Dev nD) : FVec Ideal S100000x128 .f32 := m ((c : Thread nD τ).loc main_arg0)
abbrev src (c : Dev nD) : Edges := m ((c : Thread nD τ).loc main_arg1)
abbrev dst (c : Dev nD) : Edges := m ((c : Thread nD τ).loc main_arg2)
abbrev w0 (c : Dev nD) : FVec Ideal S128x128 .f32 := m ((c : Thread nD τ).loc main_arg3)
abbrev b0 (c : Dev nD) : FVec Ideal S128 .f32 := m ((c : Thread nD τ).loc main_arg4)
abbrev w1 (c : Dev nD) : FVec Ideal S128x128 .f32 := m ((c : Thread nD τ).loc main_arg5)
abbrev b1 (c : Dev nD) : FVec Ideal S128 .f32 := m ((c : Thread nD τ).loc main_arg6)
abbrev w2 (c : Dev nD) : FVec Ideal S128x40 .f32 := m ((c : Thread nD τ).loc main_arg7)
abbrev b2 (c : Dev nD) : FVec Ideal S40 .f32 := m ((c : Thread nD τ).loc main_arg8)

/-- The value after each dense step, in order. -/
abbrev h0 (c : Dev nD) : FVec Ideal S100000x128 .f32 := scaleMatmul (feat m c) (degFactor (src m c)) (w0 m c)
abbrev h1 (c : Dev nD) : FVec Ideal S100000x128 .f32 :=
  scaleBiasRelu (aggregate128 (h0 m c) (src m c) (dst m c)) (degFactor (dst m c)) (b0 m c)
abbrev h2 (c : Dev nD) : FVec Ideal S100000x128 .f32 := scaleMatmul (h1 m c) (degFactor (src m c)) (w1 m c)
abbrev h3 (c : Dev nD) : FVec Ideal S100000x128 .f32 :=
  scaleBiasRelu (aggregate128 (h2 m c) (src m c) (dst m c)) (degFactor (dst m c)) (b1 m c)
abbrev h4 (c : Dev nD) : FVec Ideal S100000x40 .f32 := scaleMatmul (h3 m c) (degFactor (src m c)) (w2 m c)
abbrev h5 (c : Dev nD) : FVec Ideal S100000x40 .f32 :=
  scaleBias (aggregate40 (h4 m c) (src m c) (dst m c)) (degFactor (dst m c)) (b2 m c)

/-- A host stretch, evaluated at one buffer: the stretch's operations applied to the contents it started from. -/
local macro "host_eval" : tactic => `(tactic| (
  dsimp only [W15, W13, W11, W9, W7, W5, W4, W3, W2, W1, W0, hostOps0, hostOps0_1, hostOps0_2, hostOps0_3, hostOps0_4,
    hostOps1, hostOps2, hostOps3, hostOps4, hostOps5]
  after_results))

/-! ## The first stretch: the arguments as launched, the two degree factors -/

theorem W5_arg0 (c : Dev nD) : W5 m ρ c (Proc.devRef .tc main_arg0) = feat m c := by host_eval
theorem W5_arg1 (c : Dev nD) : W5 m ρ c (Proc.devRef .tc main_arg1) = src m c := by host_eval
theorem W5_arg2 (c : Dev nD) : W5 m ρ c (Proc.devRef .tc main_arg2) = dst m c := by host_eval
theorem W5_arg3 (c : Dev nD) : W5 m ρ c (Proc.devRef .tc main_arg3) = w0 m c := by host_eval
theorem W5_arg4 (c : Dev nD) : W5 m ρ c (Proc.devRef .tc main_arg4) = b0 m c := by host_eval
theorem W5_arg5 (c : Dev nD) : W5 m ρ c (Proc.devRef .tc main_arg5) = w1 m c := by host_eval
theorem W5_arg6 (c : Dev nD) : W5 m ρ c (Proc.devRef .tc main_arg6) = b1 m c := by host_eval
theorem W5_arg7 (c : Dev nD) : W5 m ρ c (Proc.devRef .tc main_arg7) = w2 m c := by host_eval
theorem W5_arg8 (c : Dev nD) : W5 m ρ c (Proc.devRef .tc main_arg8) = b2 m c := by host_eval

/-- The out-degrees and what the first comparison, maximum and reciprocal square root make of them; the in-degrees. -/
theorem W1_v8 (c : Dev nD) : W1 m ρ c (Proc.devRef .tc main_v8)
    = cmpf (F := Ideal) .ogt (degree (src m c)) (broadcastInDim S100000 ![] Gen.bcast_S_S100000 (constant S_ .f32 0x00000000#32)) := by
  unfold degree
  show after hostOps0 (W0 m ρ c) (Proc.devRef .tc main_v8) = _
  dsimp only [hostOps0]
  after_results
theorem W1_v11 (c : Dev nD) : W1 m ρ c (Proc.devRef .tc main_v11)
    = Host.rsqrt (maximumf (degree (src m c)) (broadcastInDim S100000 ![] Gen.bcast_S_S100000 (constant S_ .f32 0x3F800000#32))) := by
  unfold degree
  show after hostOps0 (W0 m ρ c) (Proc.devRef .tc main_v11) = _
  dsimp only [hostOps0]
  after_results
theorem W1_cst4 (c : Dev nD) : W1 m ρ c (Proc.devRef .tc main_cst_4) = constant (F := Ideal) S_ .f32 0x00000000#32 := by
  show after hostOps0 (W0 m ρ c) (Proc.devRef .tc main_cst_4) = _
  dsimp only [hostOps0]
  after_results
theorem W1_v6 (c : Dev nD) : W1 m ρ c (Proc.devRef .tc main_v6) = degree (dst m c) := by
  unfold degree
  show after hostOps0 (W0 m ρ c) (Proc.devRef .tc main_v6) = _
  dsimp only [hostOps0]
  after_results

/-- The out-degree factor: the selection between the reciprocal square root and zero. -/
theorem W2_v12 (c : Dev nD) : W2 m ρ c (Proc.devRef .tc main_v12) = degFactor (src m c) := by
  have e : W2 m ρ c (Proc.devRef .tc main_v12)
      = select (W1 m ρ c (Proc.devRef .tc main_v8)) (W1 m ρ c (Proc.devRef .tc main_v11))
          (broadcastInDim S100000 ![] Gen.bcast_S_S100000 (id (W1 m ρ c (Proc.devRef .tc main_cst_4)))) := by
    show after hostOps0_1 (W1 m ρ c) (Proc.devRef .tc main_v12) = _
    generalize W1 m ρ c = V1
    dsimp only [hostOps0_1]
    after_results
    rfl
  rw [e, W1_v8, W1_v11, W1_cst4]
  rfl
theorem W2_v6 (c : Dev nD) : W2 m ρ c (Proc.devRef .tc main_v6) = degree (dst m c) := by
  rw [← W1_v6 m ρ c]
  show after hostOps0_1 (W1 m ρ c) (Proc.devRef .tc main_v6) = _
  generalize W1 m ρ c = V1
  dsimp only [hostOps0_1]
  after_results

/-- The same three steps on the in-degrees. -/
theorem W3_v14 (c : Dev nD) : W3 m ρ c (Proc.devRef .tc main_v14)
    = cmpf (F := Ideal) .ogt (degree (dst m c)) (broadcastInDim S100000 ![] Gen.bcast_S_S100000 (constant S_ .f32 0x00000000#32)) := by
  rw [← W2_v6 m ρ c]
  show after hostOps0_2 (W2 m ρ c) (Proc.devRef .tc main_v14) = _
  generalize W2 m ρ c = V2
  dsimp only [hostOps0_2]
  after_results
theorem W3_v17 (c : Dev nD) : W3 m ρ c (Proc.devRef .tc main_v17)
    = Host.rsqrt (maximumf (degree (dst m c)) (broadcastInDim S100000 ![] Gen.bcast_S_S100000 (constant S_ .f32 0x3F800000#32))) := by
  rw [← W2_v6 m ρ c]
  show after hostOps0_2 (W2 m ρ c) (Proc.devRef .tc main_v17) = _
  generalize W2 m ρ c = V2
  dsimp only [hostOps0_2]
  after_results
theorem W3_cst7 (c : Dev nD) : W3 m ρ c (Proc.devRef .tc main_cst_7) = constant (F := Ideal) S_ .f32 0x00000000#32 := by
  show after hostOps0_2 (W2 m ρ c) (Proc.devRef .tc main_cst_7) = _
  generalize W2 m ρ c = V2
  dsimp only [hostOps0_2]
  after_results
theorem W3_v12 (c : Dev nD) : W3 m ρ c (Proc.devRef .tc main_v12) = degFactor (src m c) := by
  rw [← W2_v12 m ρ c]
  show after hostOps0_2 (W2 m ρ c) (Proc.devRef .tc main_v12) = _
  generalize W2 m ρ c = V2
  dsimp only [hostOps0_2]
  after_results

/-- The in-degree factor. -/
theorem W4_v18 (c : Dev nD) : W4 m ρ c (Proc.devRef .tc main_v18) = degFactor (dst m c) := by
  have e : W4 m ρ c (Proc.devRef .tc main_v18)
      = select (W3 m ρ c (Proc.devRef .tc main_v14)) (W3 m ρ c (Proc.devRef .tc main_v17))
          (broadcastInDim S100000 ![] Gen.bcast_S_S100000 (id (W3 m ρ c (Proc.devRef .tc main_cst_7)))) := by
    show after hostOps0_3 (W3 m ρ c) (Proc.devRef .tc main_v18) = _
    generalize W3 m ρ c = V3
    dsimp only [hostOps0_3]
    after_results
    rfl
  rw [e, W3_v14, W3_v17, W3_cst7]
  rfl
theorem W4_v12 (c : Dev nD) : W4 m ρ c (Proc.devRef .tc main_v12) = degFactor (src m c) := by
  rw [← W3_v12 m ρ c]
  show after hostOps0_3 (W3 m ρ c) (Proc.devRef .tc main_v12) = _
  generalize W3 m ρ c = V3
  dsimp only [hostOps0_3]
  after_results

/-- Both factors at region 0's entry, the out-degree factor also as a column. -/
theorem W5_v12 (c : Dev nD) : W5 m ρ c (Proc.devRef .tc main_v12) = degFactor (src m c) := by
  rw [← W4_v12 m ρ c]
  show after hostOps0_4 (W4 m ρ c) (Proc.devRef .tc main_v12) = _
  generalize W4 m ρ c = V4
  dsimp only [hostOps0_4]
  after_results
theorem W5_v18 (c : Dev nD) : W5 m ρ c (Proc.devRef .tc main_v18) = degFactor (dst m c) := by
  rw [← W4_v18 m ρ c]
  show after hostOps0_4 (W4 m ρ c) (Proc.devRef .tc main_v18) = _
  generalize W4 m ρ c = V4
  dsimp only [hostOps0_4]
  after_results
theorem W5_v19 (c : Dev nD) : W5 m ρ c (Proc.devRef .tc main_v19)
    = shapeCast S100000x1 (degFactor (src m c)) Gen.shapeCasts_S100000_S100000x1 := by
  rw [← W4_v12 m ρ c]
  show after hostOps0_4 (W4 m ρ c) (Proc.devRef .tc main_v19) = _
  generalize W4 m ρ c = V4
  dsimp only [hostOps0_4]
  after_results
  rfl

/-! ## What later stretches read again is not written in between -/

/-- The buffers read again after region 0: the edge lists, the later parameters, the two degree factors. None is an
    array of regions 0 or 1 and no host stretch writes one. -/
abbrev keepA : List (Ref sig .tc) :=
  [main_arg1, main_arg2, main_arg4, main_arg5, main_arg6, main_arg7, main_arg8, main_v12, main_v18]
/-- Those still read after region 2 (none is an array of regions 2 or 3). -/
abbrev keepB : List (Ref sig .tc) := [main_arg1, main_arg2, main_arg6, main_arg7, main_arg8, main_v12, main_v18]
/-- Those still read after region 4 (none is an array of region 4). -/
abbrev keepC : List (Ref sig .tc) := [main_arg1, main_arg2, main_arg8, main_v18]

theorem kept6 (c : Dev nD) : ∀ b ∈ keepA, W6 m ρ c (Proc.devRef .tc b) = W5 m ρ c (Proc.devRef .tc b) := by
  intro b hb
  simp only [keepA, List.mem_cons, List.mem_nil_iff, or_false] at hb
  rcases hb with rfl | rfl | rfl | rfl | rfl | rfl | rfl | rfl | rfl <;> exact W6_of_ne m ρ c _ (by decide)

theorem kept7 (c : Dev nD) : ∀ b ∈ keepA, W7 m ρ c (Proc.devRef .tc b) = W6 m ρ c (Proc.devRef .tc b) := by
  intro b hb
  simp only [keepA, List.mem_cons, List.mem_nil_iff, or_false] at hb
  rcases hb with rfl | rfl | rfl | rfl | rfl | rfl | rfl | rfl | rfl <;> (show after hostOps1 (W6 m ρ c) _ = _; generalize W6 m ρ c = V; dsimp only [hostOps1]; after_results)

theorem kept8 (c : Dev nD) : ∀ b ∈ keepA, W8 m ρ c (Proc.devRef .tc b) = W7 m ρ c (Proc.devRef .tc b) := by
  intro b hb
  simp only [keepA, List.mem_cons, List.mem_nil_iff, or_false] at hb
  rcases hb with rfl | rfl | rfl | rfl | rfl | rfl | rfl | rfl | rfl <;> exact W8_of_ne m ρ c _ (by decide)

theorem kept9 (c : Dev nD) : ∀ b ∈ keepA, W9 m ρ c (Proc.devRef .tc b) = W8 m ρ c (Proc.devRef .tc b) := by
  intro b hb
  simp only [keepA, List.mem_cons, List.mem_nil_iff, or_false] at hb
  rcases hb with rfl | rfl | rfl | rfl | rfl | rfl | rfl | rfl | rfl <;> (show after hostOps2 (W8 m ρ c) _ = _; generalize W8 m ρ c = V; dsimp only [hostOps2]; after_results)

theorem kept10 (c : Dev nD) : ∀ b ∈ keepB, W10 m ρ c (Proc.devRef .tc b) = W9 m ρ c (Proc.devRef .tc b) := by
  intro b hb
  simp only [keepB, List.mem_cons, List.mem_nil_iff, or_false] at hb
  rcases hb with rfl | rfl | rfl | rfl | rfl | rfl | rfl <;> exact W10_of_ne m ρ c _ (by decide)

theorem kept11 (c : Dev nD) : ∀ b ∈ keepB, W11 m ρ c (Proc.devRef .tc b) = W10 m ρ c (Proc.devRef .tc b) := by
  intro b hb
  simp only [keepB, List.mem_cons, List.mem_nil_iff, or_false] at hb
  rcases hb with rfl | rfl | rfl | rfl | rfl | rfl | rfl <;> (show after hostOps3 (W10 m ρ c) _ = _; generalize W10 m ρ c = V; dsimp only [hostOps3]; after_results)

theorem kept12 (c : Dev nD) : ∀ b ∈ keepB, W12 m ρ c (Proc.devRef .tc b) = W11 m ρ c (Proc.devRef .tc b) := by
  intro b hb
  simp only [keepB, List.mem_cons, List.mem_nil_iff, or_false] at hb
  rcases hb with rfl | rfl | rfl | rfl | rfl | rfl | rfl <;> exact W12_of_ne m ρ c _ (by decide)

theorem kept13 (c : Dev nD) : ∀ b ∈ keepB, W13 m ρ c (Proc.devRef .tc b) = W12 m ρ c (Proc.devRef .tc b) := by
  intro b hb
  simp only [keepB, List.mem_cons, List.mem_nil_iff, or_false] at hb
  rcases hb with rfl | rfl | rfl | rfl | rfl | rfl | rfl <;> (show after hostOps4 (W12 m ρ c) _ = _; generalize W12 m ρ c = V; dsimp only [hostOps4]; after_results)

theorem kept14 (c : Dev nD) : ∀ b ∈ keepC, W14 m ρ c (Proc.devRef .tc b) = W13 m ρ c (Proc.devRef .tc b) := by
  intro b hb
  simp only [keepC, List.mem_cons, List.mem_nil_iff, or_false] at hb
  rcases hb with rfl | rfl | rfl | rfl <;> exact W14_of_ne m ρ c _ (by decide)

/-- At each later boundary such a buffer still holds what the first stretch left in it. -/
theorem at8 (c : Dev nD) (b : Ref sig .tc) (hA : b ∈ keepA) : W8 m ρ c (Proc.devRef .tc b) = W5 m ρ c (Proc.devRef .tc b) :=
  ((kept8 m ρ c b hA).trans (kept7 m ρ c b hA)).trans (kept6 m ρ c b hA)
theorem at9 (c : Dev nD) (b : Ref sig .tc) (hA : b ∈ keepA) : W9 m ρ c (Proc.devRef .tc b) = W5 m ρ c (Proc.devRef .tc b) :=
  (kept9 m ρ c b hA).trans (at8 m ρ c b hA)
theorem at10 (c : Dev nD) (b : Ref sig .tc) (hA : b ∈ keepA) (hB : b ∈ keepB) :
    W10 m ρ c (Proc.devRef .tc b) = W5 m ρ c (Proc.devRef .tc b) := (kept10 m ρ c b hB).trans (at9 m ρ c b hA)
theorem at12 (c : Dev nD) (b : Ref sig .tc) (hA : b ∈ keepA) (hB : b ∈ keepB) :
    W12 m ρ c (Proc.devRef .tc b) = W5 m ρ c (Proc.devRef .tc b) :=
  ((kept12 m ρ c b hB).trans (kept11 m ρ c b hB)).trans (at10 m ρ c b hA hB)
theorem at13 (c : Dev nD) (b : Ref sig .tc) (hA : b ∈ keepA) (hB : b ∈ keepB) :
    W13 m ρ c (Proc.devRef .tc b) = W5 m ρ c (Proc.devRef .tc b) := (kept13 m ρ c b hB).trans (at12 m ρ c b hA hB)
theorem at14 (c : Dev nD) (b : Ref sig .tc) (hA : b ∈ keepA) (hB : b ∈ keepB) (hC : b ∈ keepC) :
    W14 m ρ c (Proc.devRef .tc b) = W5 m ρ c (Proc.devRef .tc b) := (kept14 m ρ c b hC).trans (at13 m ρ c b hA hB)

/-! ## Layer 1 -/

/-- Region 0 leaves the scaled rows times the first matrix. -/
theorem W6_v20 (c : Dev nD) : W6 m ρ c (Proc.devRef .tc main_v20) = h0 m c := by
  refine (W6_arr m ρ c 3).trans ((final0 (V5 m ρ) c).trans ?_)
  show scaleMatmul (W5 m ρ c (Proc.devRef .tc main_arg0)) (colVec (W5 m ρ c (Proc.devRef .tc main_v19)))
    (W5 m ρ c (Proc.devRef .tc main_arg3)) = _
  rw [W5_arg0, W5_v19, W5_arg3, colVec_shapeCast]

/-- The host aggregates them over the edges, and reshapes the in-degree factor and the bias. -/
theorem W7_v30 (c : Dev nD) : W7 m ρ c (Proc.devRef .tc main_v30)
    = aggregate128 (W6 m ρ c (Proc.devRef .tc main_v20)) (W6 m ρ c (Proc.devRef .tc main_arg1)) (W6 m ρ c (Proc.devRef .tc main_arg2)) := by
  unfold aggregate128 wrapIndex
  show after hostOps1 (W6 m ρ c) _ = _
  generalize W6 m ρ c = V
  dsimp only [hostOps1]
  after_results
theorem W7_v31 (c : Dev nD) : W7 m ρ c (Proc.devRef .tc main_v31)
    = shapeCast S100000x1 (W6 m ρ c (Proc.devRef .tc main_v18)) Gen.shapeCasts_S100000_S100000x1 := by
  show after hostOps1 (W6 m ρ c) _ = _
  generalize W6 m ρ c = V
  dsimp only [hostOps1]
  after_results
  rfl
theorem W7_v32 (c : Dev nD) : W7 m ρ c (Proc.devRef .tc main_v32)
    = shapeCast S1x128 (W6 m ρ c (Proc.devRef .tc main_arg4)) Gen.shapeCasts_S128_S1x128 := by
  show after hostOps1 (W6 m ρ c) _ = _
  generalize W6 m ρ c = V
  dsimp only [hostOps1]
  after_results
  rfl

/-- Region 1 leaves the first layer's output. -/
theorem W8_v33 (c : Dev nD) : W8 m ρ c (Proc.devRef .tc main_v33) = h1 m c := by
  refine (W8_arr m ρ c 3).trans ((final1 (V7 m ρ) c).trans ?_)
  show scaleBiasRelu (W7 m ρ c (Proc.devRef .tc main_v30)) (colVec (W7 m ρ c (Proc.devRef .tc main_v31)))
    (rowVec (W7 m ρ c (Proc.devRef .tc main_v32))) = _
  rw [W7_v30, W7_v31, W7_v32, colVec_shapeCast, rowVec_shapeCast, W6_v20,
    kept6 m ρ c main_arg1 (by decide), kept6 m ρ c main_arg2 (by decide), kept6 m ρ c main_v18 (by decide),
    kept6 m ρ c main_arg4 (by decide), W5_arg1, W5_arg2, W5_v18, W5_arg4]

/-! ## Layer 2 -/

theorem W9_v33 (c : Dev nD) : W9 m ρ c (Proc.devRef .tc main_v33) = W8 m ρ c (Proc.devRef .tc main_v33) := by
  show after hostOps2 (W8 m ρ c) _ = _
  generalize W8 m ρ c = V
  dsimp only [hostOps2]
  after_results
theorem W9_v34 (c : Dev nD) : W9 m ρ c (Proc.devRef .tc main_v34)
    = shapeCast S100000x1 (W8 m ρ c (Proc.devRef .tc main_v12)) Gen.shapeCasts_S100000_S100000x1 := by
  show after hostOps2 (W8 m ρ c) _ = _
  generalize W8 m ρ c = V
  dsimp only [hostOps2]
  after_results
  rfl

theorem W10_v35 (c : Dev nD) : W10 m ρ c (Proc.devRef .tc main_v35) = h2 m c := by
  refine (W10_arr m ρ c 3).trans ((final2 (V9 m ρ) c).trans ?_)
  show scaleMatmul (W9 m ρ c (Proc.devRef .tc main_v33)) (colVec (W9 m ρ c (Proc.devRef .tc main_v34)))
    (W9 m ρ c (Proc.devRef .tc main_arg5)) = _
  rw [W9_v33, W8_v33, W9_v34, colVec_shapeCast, at8 m ρ c main_v12 (by decide), W5_v12,
    at9 m ρ c main_arg5 (by decide), W5_arg5]

set_option maxHeartbeats 1000000 in
theorem W11_v45 (c : Dev nD) : W11 m ρ c (Proc.devRef .tc main_v45)
    = aggregate128 (W10 m ρ c (Proc.devRef .tc main_v35)) (W10 m ρ c (Proc.devRef .tc main_arg1)) (W10 m ρ c (Proc.devRef .tc main_arg2)) := by
  unfold aggregate128 wrapIndex
  show after hostOps3 (W10 m ρ c) _ = _
  generalize W10 m ρ c = V
  dsimp only [hostOps3]
  after_results
theorem W11_v46 (c : Dev nD) : W11 m ρ c (Proc.devRef .tc main_v46)
    = shapeCast S100000x1 (W10 m ρ c (Proc.devRef .tc main_v18)) Gen.shapeCasts_S100000_S100000x1 := by
  show after hostOps3 (W10 m ρ c) _ = _
  generalize W10 m ρ c = V
  dsimp only [hostOps3]
  after_results
  rfl
theorem W11_v47 (c : Dev nD) : W11 m ρ c (Proc.devRef .tc main_v47)
    = shapeCast S1x128 (W10 m ρ c (Proc.devRef .tc main_arg6)) Gen.shapeCasts_S128_S1x128 := by
  show after hostOps3 (W10 m ρ c) _ = _
  generalize W10 m ρ c = V
  dsimp only [hostOps3]
  after_results
  rfl

theorem W12_v48 (c : Dev nD) : W12 m ρ c (Proc.devRef .tc main_v48) = h3 m c := by
  refine (W12_arr m ρ c 3).trans ((final3 (V11 m ρ) c).trans ?_)
  show scaleBiasRelu (W11 m ρ c (Proc.devRef .tc main_v45)) (colVec (W11 m ρ c (Proc.devRef .tc main_v46)))
    (rowVec (W11 m ρ c (Proc.devRef .tc main_v47))) = _
  rw [W11_v45, W11_v46, W11_v47, colVec_shapeCast, rowVec_shapeCast, W10_v35,
    at10 m ρ c main_arg1 (by decide) (by decide), at10 m ρ c main_arg2 (by decide) (by decide),
    at10 m ρ c main_v18 (by decide) (by decide), at10 m ρ c main_arg6 (by decide) (by decide),
    W5_arg1, W5_arg2, W5_v18, W5_arg6]

/-! ## Layer 3 -/

theorem W13_v48 (c : Dev nD) : W13 m ρ c (Proc.devRef .tc main_v48) = W12 m ρ c (Proc.devRef .tc main_v48) := by
  show after hostOps4 (W12 m ρ c) _ = _
  generalize W12 m ρ c = V
  dsimp only [hostOps4]
  after_results
theorem W13_v49 (c : Dev nD) : W13 m ρ c (Proc.devRef .tc main_v49)
    = shapeCast S100000x1 (W12 m ρ c (Proc.devRef .tc main_v12)) Gen.shapeCasts_S100000_S100000x1 := by
  show after hostOps4 (W12 m ρ c) _ = _
  generalize W12 m ρ c = V
  dsimp only [hostOps4]
  after_results
  rfl

theorem W14_v50 (c : Dev nD) : W14 m ρ c (Proc.devRef .tc main_v50) = h4 m c := by
  refine (W14_arr m ρ c 3).trans ((final4 (V13 m ρ) c).trans ?_)
  show scaleMatmul (W13 m ρ c (Proc.devRef .tc main_v48)) (colVec (W13 m ρ c (Proc.devRef .tc main_v49)))
    (W13 m ρ c (Proc.devRef .tc main_arg7)) = _
  rw [W13_v48, W12_v48, W13_v49, colVec_shapeCast, at12 m ρ c main_v12 (by decide) (by decide), W5_v12,
    at13 m ρ c main_arg7 (by decide) (by decide), W5_arg7]

set_option maxHeartbeats 1000000 in
theorem W15_v60 (c : Dev nD) : W15 m ρ c (Proc.devRef .tc main_v60)
    = aggregate40 (W14 m ρ c (Proc.devRef .tc main_v50)) (W14 m ρ c (Proc.devRef .tc main_arg1)) (W14 m ρ c (Proc.devRef .tc main_arg2)) := by
  unfold aggregate40 wrapIndex
  show after hostOps5 (W14 m ρ c) _ = _
  generalize W14 m ρ c = V
  dsimp only [hostOps5]
  after_results
theorem W15_v61 (c : Dev nD) : W15 m ρ c (Proc.devRef .tc main_v61)
    = shapeCast S100000x1 (W14 m ρ c (Proc.devRef .tc main_v18)) Gen.shapeCasts_S100000_S100000x1 := by
  show after hostOps5 (W14 m ρ c) _ = _
  generalize W14 m ρ c = V
  dsimp only [hostOps5]
  after_results
  rfl
theorem W15_v62 (c : Dev nD) : W15 m ρ c (Proc.devRef .tc main_v62)
    = shapeCast S1x40 (W14 m ρ c (Proc.devRef .tc main_arg8)) Gen.shapeCasts_S40_S1x40 := by
  show after hostOps5 (W14 m ρ c) _ = _
  generalize W14 m ρ c = V
  dsimp only [hostOps5]
  after_results
  rfl

/-- Region 5 leaves the network's result. -/
theorem W16_v63 (c : Dev nD) : W16 m ρ c (Proc.devRef .tc main_v63) = h5 m c := by
  refine (W16_arr m ρ c 3).trans ((final5 (V15 m ρ) c).trans ?_)
  show scaleBias (W15 m ρ c (Proc.devRef .tc main_v60)) (colVec (W15 m ρ c (Proc.devRef .tc main_v61)))
    (rowVec (W15 m ρ c (Proc.devRef .tc main_v62))) = _
  rw [W15_v60, W15_v61, W15_v62, colVec_shapeCast, rowVec_shapeCast, W14_v50,
    at14 m ρ c main_arg1 (by decide) (by decide) (by decide), at14 m ρ c main_arg2 (by decide) (by decide) (by decide),
    at14 m ρ c main_v18 (by decide) (by decide) (by decide), at14 m ρ c main_arg8 (by decide) (by decide) (by decide),
    W5_arg1, W5_arg2, W5_v18, W5_arg8]

/-! ## The run, read -/

/-- The result buffer ends holding the network of the argument arrays. -/
theorem result_eq (c : Dev nD) : W16 m ρ c (Proc.devRef .tc main_v63)
    = network (feat m c) (src m c) (dst m c) (w0 m c) (b0 m c) (w1 m c) (b1 m c) (w2 m c) (b2 m c) :=
  W16_v63 m ρ c

/-- The kernel program's run, read: the result at the network of the arguments, the arguments unchanged. -/
theorem run : θ_run defs (onTc (τ := τ) (main (F := Ideal))) ⟨m, fun _ => 0, ρ⟩ (fun r => ∀ c : Dev nD,
      r.2.mem ((c.tc : Thread nD τ).loc main_v63)
        = network (feat m c) (src m c) (dst m c) (w0 m c) (b0 m c) (w1 m c) (b1 m c) (w2 m c) (b2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c), (h c).2⟩) (run_named (F := Ideal) m ρ)

end Cert.KernelIdeal.Chain

end
-- ==== Proof.RefValue.lean ====
/-
  The reference's result is the network of its argument arrays.

  The reference computes each layer on whole arrays: the out-degree factors broadcast to a column and along the lanes, a
  product, a contraction of axis 1 with axis 0 (`scaleMatmul`); the aggregation over the edges; the in-degree factors
  broadcast the same way, a product, the bias broadcast to a row and down the rows, a sum (`scaleBias`), and in the first
  two layers a maximum with zero (`scaleBiasRelu`). The degree factors and the aggregation are the network's own
  operations, the same in both programs, and are compared as they stand.
-/
import proofs.«163560_j2585570312241_1_alg».proof.Proof.RefRun
import proofs.«163560_j2585570312241_1_alg».proof.Proof.Tile
import proofs.«163560_j2585570312241_1_alg».proof.Proof.Shared
set_option maxRecDepth 16384
noncomputable section
namespace Cert.ReferenceIdeal.RefValue
open Idealize.ShloMosaic Idealize.ShloMosaic.TcCoe Idealize.SL.Sem
open Cert.ReferenceIdeal Cert.ReferenceIdeal.Gen Cert.GraphConv Cert.Lib.Rowwise

/-- The last layer's scaling and bias, in the reference's spelling. -/
theorem sb40 (a : FVec Ideal S100000x40 .f32) (s : FVec Ideal S100000 .f32) (b : FVec Ideal S40 .f32) :
    addf (mulf a (broadcastInDim S100000x40 ![0, 1] bcast_S100000x1_S100000x40_0_1 (broadcastInDim S100000x1 ![0] bcast_S100000_S100000x1_0 s)))
      (broadcastInDim S100000x40 ![0, 1] bcast_S1x40_S100000x40_0_1 (broadcastInDim S1x40 ![1] bcast_S40_S1x40_1 b))
    = scaleBias a s b := host_scaleBias a s b _ _ _ _

/-- A hidden layer's scaling, bias and positive part, in the reference's spelling. -/
theorem sbr128 (a : FVec Ideal S100000x128 .f32) (s : FVec Ideal S100000 .f32) (b : FVec Ideal S128 .f32) :
    maximumf (addf (mulf a (broadcastInDim S100000x128 ![0, 1] bcast_S100000x1_S100000x128_0_1 (broadcastInDim S100000x1 ![0] bcast_S100000_S100000x1_0 s)))
      (broadcastInDim S100000x128 ![0, 1] bcast_S1x128_S100000x128_0_1 (broadcastInDim S1x128 ![1] bcast_S128_S1x128_1 b)))
      (broadcastInDim S100000x128 ![] bcast_S_S100000x128 (constant S_ .f32 0x00000000#32))
    = scaleBiasRelu a s b := host_scaleBiasRelu a s b _ _ _ _ _

/-- A hidden layer's scaling and matrix product, in the reference's spelling. -/
theorem sm128 (h : FVec Ideal S100000x128 .f32) (s : FVec Ideal S100000 .f32) (w : FVec Ideal S128x128 .f32) :
    Host.dotGeneral dot_S100000x128_S128x128_S100000x128_1_0_0_1_n_n none
      (mulf h (broadcastInDim S100000x128 ![0, 1] bcast_S100000x1_S100000x128_0_1 (broadcastInDim S100000x1 ![0] bcast_S100000_S100000x1_0 s))) w
    = scaleMatmul h s w := host_scaleMatmul _ (eq_plain _ rfl rfl rfl rfl rfl rfl) _ _ h s w _ _

/-- The last layer's scaling and matrix product, in the reference's spelling. -/
theorem sm40 (h : FVec Ideal S100000x128 .f32) (s : FVec Ideal S100000 .f32) (w : FVec Ideal S128x40 .f32) :
    Host.dotGeneral dot_S100000x128_S128x40_S100000x40_1_0_0_1_n_n none
      (mulf h (broadcastInDim S100000x128 ![0, 1] bcast_S100000x1_S100000x128_0_1 (broadcastInDim S100000x1 ![0] bcast_S100000_S100000x1_0 s))) w
    = scaleMatmul h s w := host_scaleMatmul _ (eq_plain _ rfl rfl rfl rfl rfl rfl) _ _ h s w _ _

/-- The reference run's result term, at the extended reals, is the network of the argument arrays: the six dense
    steps rewritten to their index-by-index forms, outermost first; what is left is the shared host operations. -/
theorem result_eq (m : (ℓ : Loc nD τ sig) → Buf (Elt Ideal) ℓ) (c : Dev nD) :
    Cert.ReferenceIdeal.ValueP.res_main_v80 (F := Ideal) m c
      = network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  unfold Cert.ReferenceIdeal.ValueP.res_main_v80
  rw [sb40, sm40, sbr128, sm128, sbr128, sm128]
  unfold network aggregate40 aggregate128 degFactor degree wrapIndex
  rfl

end Cert.ReferenceIdeal.RefValue
end
-- ==== Proof.lean ====
/-
  A three-layer graph convolution (DGL's GraphConv with both-sided degree normalisation) over 100000 nodes and 1600000
  edges: each layer scales the node features by the out-degree factor and multiplies by the weight matrix, sums the
  transformed rows over the edges into their destination nodes, scales by the in-degree factor and adds the bias; the
  first two layers end in the positive part.

  The kernel program runs the two dense steps of every layer as row-tiled regions (20 tiles of 5000 rows; the product in
  a narrower float format with a wide accumulator, which on the extended reals is the plain product) and leaves the
  degree factors and the aggregation to the host; the reference runs everything on the host, on whole arrays. Both are
  shown to end with ONE function of the argument arrays, `GraphConv.network`: the kernel's result buffer by folding the
  last boundary's contents back through the regions (`Chain`, over each region's result array read off its run,
  `Final0` … `Final5`), the reference's result term by rewriting its dense steps (`RefValue`). No algebraic law beyond
  reading the sums index by index is needed, so the inputs' finiteness is never used; the integer edge lists are
  whatever they are, the gathers and scatters being the same operations in both programs.
-/
import proofs.«163560_j2585570312241_1_alg».proof.Defs
import proofs.«163560_j2585570312241_1_alg».proof.Proof.Gen.Kernel
import proofs.«163560_j2585570312241_1_alg».proof.Proof.Gen.Kernel.Frame
import proofs.«163560_j2585570312241_1_alg».proof.Proof.Gen.KernelIdeal
import proofs.«163560_j2585570312241_1_alg».proof.Proof.Gen.KernelIdeal.Frame
import proofs.«163560_j2585570312241_1_alg».proof.Proof.Gen.ReferenceIdeal
import proofs.«163560_j2585570312241_1_alg».proof.Proof.Gen.Pre_finite_inputs
import proofs.«163560_j2585570312241_1_alg».proof.Proof.Chain
import proofs.«163560_j2585570312241_1_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the arguments both programs end with the network of the arguments. -/
theorem algebraic : Cert.algebraic_KernelIdeal_ReferenceIdeal := by
  intro m ρ m' ρ' _ hagree
  refine ⟨_, Cert.KernelIdeal.Chain.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.result_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
